-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S288x300 : Shape := ⟨2, ![288, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S256x300 : Shape := ⟨2, ![256, 300]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S288x300 : S_.BroadcastsInDim S288x300 (![] : Fin 0 → Fin S288x300.rank)
  reducesTo_S288x300_S_d0_1 : S288x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S256x300 : S_.BroadcastsInDim S256x300 (![] : Fin 0 → Fin S256x300.rank)
  reducesTo_S256x300_S_d0_1 : S256x300.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg1 : IVec S2x800000 32) (main_v98 : IVec S_ 1) (main_v101 : IVec S_ 1) : IVec S_ 1 :=
  let main_v102 : IVec S_ 1 := andi main_v98 main_v101
  let main_c_40 : IVec S_ 32 := constantI S_ 32 50000#32
  let main_v103 : IVec S2x800000 32 := broadcastInDim S2x800000 ![] bcast_S_S2x800000 main_c_40
  let main_v104 : IVec S2x800000 1 := cmpi .slt main_arg1 main_v103
  let main_c_41 : IVec S_ 1 := constantI S_ 1 1#1
  let main_v105 : IVec S_ 1 := (fun x v => Host.reduce IntOp.andi x v reducesTo_S2x800000_S_d0_1 h_S_) main_v104 main_c_41
  let main_v106 : IVec S_ 1 := andi main_v102 main_v105
  main_v106

def fn_part5 {F : FTy → Type} [FloatOps F] (main_arg1 : IVec S2x800000 32) (main_arg20 : FVec F S128x1 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S2x800000 32 := broadcastInDim S2x800000 ![] bcast_S_S2x800000 main_c_38
  let main_v100 : IVec S2x800000 1 := cmpi .sge main_arg1 main_v99
  let main_c_39 : IVec S_ 1 := constantI S_ 1 1#1
  let main_v101 : IVec S_ 1 := (fun x v => Host.reduce IntOp.andi x v reducesTo_S2x800000_S_d0_1 h_S_) main_v100 main_c_39
  fn_part6 (F := F) main_arg1 main_v98 main_v101

def fn_part4 {F : FTy → Type} [FloatOps F] (main_arg1 : IVec S2x800000 32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg20 main_arg21 main_v83 main_v84 main_cst_32

def fn_part3 {F : FTy → Type} [FloatOps F] (main_arg1 : IVec S2x800000 32) (main_arg13 : FVec F S300 .f32) (main_arg14 : FVec F S300x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S300x300 .f32) (main_v50 : FVec F S300x300 .f32) : IVec S_ 1 :=
  let main_v51 : IVec S300x300 1 := cmpf .olt main_v49 main_v50
  let main_c_19 : IVec S_ 1 := constantI S_ 1 1#1
  let main_v52 : IVec S_ 1 := (fun x v => Host.reduce IntOp.andi x v reducesTo_S300x300_S_d0_1 h_S_) main_v51 main_c_19
  let main_v53 : IVec S_ 1 := andi main_v48 main_v52
  let main_v54 : FVec F S300 .f32 := Host.absf main_arg13
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300x128 .f32 := Host.absf main_arg14
  let main_cst_22 : FVec F S_ .f32 := constant S_ .f32 0x7F800000#32
  let main_v60 : FVec F S300x128 .f32 := broadcastInDim S300x128 ![] bcast_S_S300x128 main_cst_22
  let main_v61 : IVec S300x128 1 := cmpf .olt main_v59 main_v60
  let main_c_23 : IVec S_ 1 := constantI S_ 1 1#1
  let main_v62 : IVec S_ 1 := (fun x v => Host.reduce IntOp.andi x v reducesTo_S300x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_arg18 main_arg19 main_arg20 main_arg21 main_v63 main_v67

def fn_part2 {F : FTy → Type} [FloatOps F] (main_arg1 : IVec S2x800000 32) (main_arg9 : FVec F S128 .f32) (main_arg10 : FVec F S256x300 .f32) (main_arg11 : FVec F S300 .f32) (main_arg12 : FVec F S300x300 .f32) (main_arg13 : FVec F S300 .f32) (main_arg14 : FVec F S300x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x300 .f32 := Host.absf main_arg10
  let main_cst_14 : FVec F S_ .f32 := constant S_ .f32 0x7F800000#32
  let main_v40 : FVec F S256x300 .f32 := broadcastInDim S256x300 ![] bcast_S_S256x300 main_cst_14
  let main_v41 : IVec S256x300 1 := cmpf .olt main_v39 main_v40
  let main_c_15 : IVec S_ 1 := constantI S_ 1 1#1
  let main_v42 : IVec S_ 1 := (fun x v => Host.reduce IntOp.andi x v reducesTo_S256x300_S_d0_1 h_S_) main_v41 main_c_15
  let main_v43 : IVec S_ 1 := andi main_v38 main_v42
  let main_v44 : FVec F S300 .f32 := Host.absf main_arg11
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S300x300 .f32 := Host.absf main_arg12
  let main_cst_18 : FVec F S_ .f32 := constant S_ .f32 0x7F800000#32
  let main_v50 : FVec F S300x300 .f32 := broadcastInDim S300x300 ![] bcast_S_S300x300 main_cst_18
  fn_part3 (F := F) main_arg1 main_arg13 main_arg14 main_arg15 main_arg16 main_arg17 main_arg18 main_arg19 main_arg20 main_arg21 main_v48 main_v49 main_v50

def fn_part1 {F : FTy → Type} [FloatOps F] (main_arg1 : IVec S2x800000 32) (main_arg6 : FVec F S300x300 .f32) (main_arg7 : FVec F S300 .f32) (main_arg8 : FVec F S300x128 .f32) (main_arg9 : FVec F S128 .f32) (main_arg10 : FVec F S256x300 .f32) (main_arg11 : FVec F S300 .f32) (main_arg12 : FVec F S300x300 .f32) (main_arg13 : FVec F S300 .f32) (main_arg14 : FVec F S300x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg6
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg7
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x128 .f32 := Host.absf main_arg8
  let main_cst_10 : FVec F S_ .f32 := constant S_ .f32 0x7F800000#32
  let main_v30 : FVec F S300x128 .f32 := broadcastInDim S300x128 ![] bcast_S_S300x128 main_cst_10
  let main_v31 : IVec S300x128 1 := cmpf .olt main_v29 main_v30
  let main_c_11 : IVec S_ 1 := constantI S_ 1 1#1
  let main_v32 : IVec S_ 1 := (fun x v => Host.reduce IntOp.andi x v reducesTo_S300x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S800000x32 .f32) (main_arg3 : IVec S50000 32) (main_arg4 : FVec F S288x300 .f32) (main_arg5 : FVec F S300 .f32) (main_arg6 : FVec F S300x300 .f32) (main_arg7 : FVec F S300 .f32) (main_arg8 : FVec F S300x128 .f32) (main_arg9 : FVec F S128 .f32) (main_arg10 : FVec F S256x300 .f32) (main_arg11 : FVec F S300 .f32) (main_arg12 : FVec F S300x300 .f32) (main_arg13 : FVec F S300 .f32) (main_arg14 : FVec F S300x128 .f32) (main_arg15 : FVec F S128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S288x300 .f32 := Host.absf main_arg4
  let main_cst_2 : FVec F S_ .f32 := constant S_ .f32 0x7F800000#32
  let main_v10 : FVec F S288x300 .f32 := broadcastInDim S288x300 ![] bcast_S_S288x300 main_cst_2
  let main_v11 : IVec S288x300 1 := cmpf .olt main_v9 main_v10
  let main_c_3 : IVec S_ 1 := constantI S_ 1 1#1
  let main_v12 : IVec S_ 1 := (fun x v => Host.reduce IntOp.andi x v reducesTo_S288x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S288x300 : Shape := ⟨2, ![288, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S256x300 : Shape := ⟨2, ![256, 300]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S800000x288 : Shape := ⟨2, ![800000, 288]⟩
abbrev S1x300 : Shape := ⟨2, ![1, 300]⟩
abbrev S1x128 : Shape := ⟨2, ![1, 128]⟩
abbrev S3200x288 : Shape := ⟨2, ![3200, 288]⟩
abbrev S3200x128 : Shape := ⟨2, ![3200, 128]⟩
abbrev S3200x300 : Shape := ⟨2, ![3200, 300]⟩
abbrev S50000x256 : Shape := ⟨2, ![50000, 256]⟩
abbrev S2000x256 : Shape := ⟨2, ![2000, 256]⟩
abbrev S2000x128 : Shape := ⟨2, ![2000, 128]⟩
abbrev S2000x300 : Shape := ⟨2, ![2000, 300]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 120
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S288x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x128, .f32⟩
  | .hbm, ⟨9, _⟩ => ⟨S128, .f32⟩
  | .hbm, ⟨10, _⟩ => ⟨S256x300, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S300x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S1, .i32⟩
  | .hbm, ⟨35, _⟩ => ⟨S_, .i32⟩
  | .hbm, ⟨36, _⟩ => ⟨S800000x1, .i32⟩
  | .hbm, ⟨37, _⟩ => ⟨S800000x1, .i1⟩
  | .hbm, ⟨38, _⟩ => ⟨S1x1, .i32⟩
  | .hbm, ⟨39, _⟩ => ⟨S800000x1, .i32⟩
  | .hbm, ⟨40, _⟩ => ⟨S800000x1, .i1⟩
  | .hbm, ⟨41, _⟩ => ⟨S800000x1, .i1⟩
  | .hbm, ⟨42, _⟩ => ⟨S_, .i1⟩
  | .hbm, ⟨43, _⟩ => ⟨S800000, .i1⟩
  | .hbm, ⟨44, _⟩ => ⟨S800000x128, .f32⟩
  | .hbm, ⟨45, _⟩ => ⟨S800000x128, .i1⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S1, .i32⟩
  | .hbm, ⟨58, _⟩ => ⟨S_, .i32⟩
  | .hbm, ⟨59, _⟩ => ⟨S800000x1, .i32⟩
  | .hbm, ⟨60, _⟩ => ⟨S800000x1, .i1⟩
  | .hbm, ⟨61, _⟩ => ⟨S1x1, .i32⟩
  | .hbm, ⟨62, _⟩ => ⟨S800000x1, .i32⟩
  | .hbm, ⟨63, _⟩ => ⟨S800000x1, .i1⟩
  | .hbm, ⟨64, _⟩ => ⟨S800000x1, .i1⟩
  | .hbm, ⟨65, _⟩ => ⟨S_, .i1⟩
  | .hbm, ⟨66, _⟩ => ⟨S800000, .i1⟩
  | .hbm, ⟨67, _⟩ => ⟨S800000x128, .f32⟩
  | .hbm, ⟨68, _⟩ => ⟨S800000x128, .i1⟩
  | .hbm, ⟨69, _⟩ => ⟨S_, .f32⟩
  | .hbm, ⟨70, _⟩ => ⟨S800000x128, .f32⟩
  | .hbm, ⟨71, _⟩ => ⟨S800000x128, .f32⟩
  | .hbm, ⟨72, _⟩ => ⟨S800000x288, .f32⟩
  | .hbm, ⟨73, _⟩ => ⟨S1x300, .f32⟩
  | .hbm, ⟨74, _⟩ => ⟨S1x300, .f32⟩
  | .hbm, ⟨75, _⟩ => ⟨S1x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x256, .f32⟩
  | .hbm, ⟨82, _⟩ => ⟨S1x300, .f32⟩
  | .hbm, ⟨83, _⟩ => ⟨S1x300, .f32⟩
  | .hbm, ⟨84, _⟩ => ⟨S1x128, .f32⟩
  | .hbm, ⟨85, _⟩ => ⟨S50000x128, .f32⟩
  | .hbm, ⟨86, _⟩ => ⟨S_, .f32⟩
  | .hbm, ⟨87, _⟩ => ⟨S64x128, .f32⟩
  | .hbm, ⟨88, _⟩ => ⟨S50000x1, .i32⟩
  | .hbm, ⟨89, _⟩ => ⟨S64x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S64, .f32⟩
  | .hbm, ⟨94, _⟩ => ⟨S50000x1, .i32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x128, .f32⟩
  | .hbm, ⟨101, _⟩ => ⟨S64x128, .f32⟩
  | .hbm, ⟨102, _⟩ => ⟨S64x128, .f32⟩
  | .hbm, ⟨103, _⟩ => ⟨S1x128, .f32⟩
  | .hbm, ⟨104, _⟩ => ⟨S64x128, .f32⟩
  | .hbm, ⟨105, _⟩ => ⟨S64x128, .f32⟩
  | .hbm, ⟨106, _⟩ => ⟨S_, .f32⟩
  | .hbm, ⟨107, _⟩ => ⟨S64x128, .f32⟩
  | .hbm, ⟨108, _⟩ => ⟨S64x128, .f32⟩
  | .hbm, ⟨109, _⟩ => ⟨S64x128, .f32⟩
  | .hbm, ⟨110, _⟩ => ⟨S1x128, .f32⟩
  | .hbm, ⟨111, _⟩ => ⟨S64x128, .f32⟩
  | .hbm, ⟨112, _⟩ => ⟨S64x128, .f32⟩
  | .hbm, ⟨113, _⟩ => ⟨S_, .f32⟩
  | .hbm, ⟨114, _⟩ => ⟨S64x128, .f32⟩
  | .hbm, ⟨115, _⟩ => ⟨S64x128, .f32⟩
  | .hbm, ⟨116, _⟩ => ⟨S64x1, .f32⟩
  | .hbm, ⟨117, _⟩ => ⟨S1x1, .f32⟩
  | .hbm, ⟨118, _⟩ => ⟨S64x1, .f32⟩
  | .hbm, ⟨119, _⟩ => ⟨S64x1, .f32⟩
  | .local _ .vmem, ⟨0, _⟩ => ⟨S3200x288, .f32⟩
  | .local _ .vmem, ⟨1, _⟩ => ⟨S3200x288, .f32⟩
  | .local _ .vmem, ⟨2, _⟩ => ⟨S288x300, .f32⟩
  | .local _ .vmem, ⟨3, _⟩ => ⟨S1x300, .f32⟩
  | .local _ .vmem, ⟨4, _⟩ => ⟨S300x300, .f32⟩
  | .local _ .vmem, ⟨5, _⟩ => ⟨S1x300, .f32⟩
  | .local _ .vmem, ⟨6, _⟩ => ⟨S300x128, .f32⟩
  | .local _ .vmem, ⟨7, _⟩ => ⟨S1x128, .f32⟩
  | .local _ .vmem, ⟨8, _⟩ => ⟨S3200x128, .f32⟩
  | .local _ .vmem, ⟨9, _⟩ => ⟨S3200x128, .f32⟩
  | .local _ .vmem, ⟨10, _⟩ => ⟨S2000x256, .f32⟩
  | .local _ .vmem, ⟨11, _⟩ => ⟨S2000x256, .f32⟩
  | .local _ .vmem, ⟨12, _⟩ => ⟨S256x300, .f32⟩
  | .local _ .vmem, ⟨13, _⟩ => ⟨S1x300, .f32⟩
  | .local _ .vmem, ⟨14, _⟩ => ⟨S300x300, .f32⟩
  | .local _ .vmem, ⟨15, _⟩ => ⟨S1x300, .f32⟩
  | .local _ .vmem, ⟨16, _⟩ => ⟨S300x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_cst : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_0 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_1 : Ref sig .tc := ⟨.hbm, 90, rfl⟩
abbrev main_v22 : Ref sig .tc := ⟨.hbm, 91, rfl⟩
abbrev main_cst_2 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_cst_3 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_call2_cst : Ref sig .tc := ⟨.hbm, 106, rfl⟩
abbrev main_call2_v0 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_call3_cst : Ref sig .tc := ⟨.hbm, 113, rfl⟩
abbrev main_call3_v0 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x128_S800000x128_S800000x32_S800000x288_d1 : Shape.Concatenates [S800000x128, S800000x128, S800000x32] S800000x288 1
  shapeCasts_S300_S1x300 : S300.ShapeCasts S1x300
  shapeCasts_S128_S1x128 : S128.ShapeCasts S1x128
  inb_S3200x288_S3200x288_0_0 : ∀ a, (![0, 0] : Fin 2 → Nat) a + S3200x288.size a ≤ S3200x288.size a
  h_S3200x288 : 0 < S3200x288.numel
  shapeCasts_S3200x288_S3200x288 : S3200x288.ShapeCasts S3200x288
  bitsLt_bf16_f32 : FTy.bits .bf16 < FTy.bits .f32
  inb_S288x300_S288x300_0_0 : ∀ a, (![0, 0] : Fin 2 → Nat) a + S288x300.size a ≤ S288x300.size a
  h_S288x300 : 0 < S288x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S3200x300 : S1x300.Broadcasts S3200x300
  inb_S300x300_S300x300_0_0 : ∀ a, (![0, 0] : Fin 2 → Nat) a + S300x300.size a ≤ S300x300.size a
  h_S300x300 : 0 < S300x300.numel
  inb_S300x128_S300x128_0_0 : ∀ a, (![0, 0] : Fin 2 → Nat) a + S300x128.size a ≤ S300x128.size a
  h_S300x128 : 0 < S300x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  bcast_S_S50000x128 : S_.BroadcastsInDim S50000x128 (![] : Fin 0 → Fin S50000x128.rank)
  concatenates_S50000x128_S50000x128_S50000x256_d1 : Shape.Concatenates [S50000x128, S50000x128] S50000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x300_S256x300_0_0 : ∀ a, (![0, 0] : Fin 2 → Nat) a + S256x300.size a ≤ S256x300.size a
  h_S256x300 : 0 < S256x300.numel
  broadcasts_S1x300_S2000x300 : S1x300.Broadcasts S2000x300
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1x1_S64x1_0_1 : S1x1.BroadcastsInDim S64x1 (![0, 1] : Fin 2 → Fin S64x1.rank)
  gather_S50000x128_S800000x1_S800000x128_1_0_n_n_0_1_1128_wf : GatherDims.WF S50000x128 S800000x1 S800000x128 [1] [0] [] [0] [] 1 ![1, 128]
  dot_S3200x288_S288x300_S3200x300_1_0_0_1_n_n_wf : DotDims.WF S3200x288 S288x300 S3200x300 [1] [0] [0] [1] [] []
  dot_S3200x300_S300x300_S3200x300_1_0_0_1_n_n_wf : DotDims.WF S3200x300 S300x300 S3200x300 [1] [0] [0] [1] [] []
  dot_S3200x300_S300x128_S3200x128_1_0_0_1_n_n_wf : DotDims.WF S3200x300 S300x128 S3200x128 [1] [0] [0] [1] [] []
  scatter_S50000x128_S800000x1_S800000x128_1_0_0_1_wf : ScatterDims.WF S50000x128 S800000x1 S800000x128 [1] [0] [0] 1
  dot_S2000x256_S256x300_S2000x300_1_0_0_1_n_n_wf : DotDims.WF S2000x256 S256x300 S2000x300 [1] [0] [0] [1] [] []
  dot_S2000x300_S300x300_S2000x300_1_0_0_1_n_n_wf : DotDims.WF S2000x300 S300x300 S2000x300 [1] [0] [0] [1] [] []
  dot_S2000x300_S300x128_S2000x128_1_0_0_1_n_n_wf : DotDims.WF S2000x300 S300x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x288.size a ≤ S800000x288.size a
  hwx0_0 : ∀ i : grid0.Coords, EltTy.bits .f32 = 32 ∨ (Rect.block (s := S800000x288) S3200x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x300.size a ≤ S288x300.size a
  hwx0_1 : ∀ i : grid0.Coords, EltTy.bits .f32 = 32 ∨ (Rect.block (s := S288x300) S288x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x300.size a ≤ S300x300.size a
  hwx0_3 : ∀ i : grid0.Coords, EltTy.bits .f32 = 32 ∨ (Rect.block (s := S300x300) S300x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x128.size a ≤ S300x128.size a
  hwx0_5 : ∀ i : grid0.Coords, EltTy.bits .f32 = 32 ∨ (Rect.block (s := S300x128) S300x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S800000x128.size a
  hwx0_7 : ∀ i : grid0.Coords, EltTy.bits .f32 = 32 ∨ (Rect.block (s := S800000x128) S3200x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x300.size a ≤ S256x300.size a
  hwx1_1 : ∀ i : grid1.Coords, EltTy.bits .f32 = 32 ∨ (Rect.block (s := S256x300) S256x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .f32 = 32 ∨ (Rect.block (s := S300x300) S300x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S300x128.size a ≤ S300x128.size a
  hwx1_5 : ∀ i : grid1.Coords, EltTy.bits .f32 = 32 ∨ (Rect.block (s := S300x128) S300x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x288_S288x300_S3200x300_1_0_0_1_n_n : DotDims S3200x288 S288x300 S3200x300 where
  lhsContracting := [1]
  rhsContracting := [0]
  lhsNonContracting := [0]
  rhsNonContracting := [1]
  lhsBatch := []
  rhsBatch := []
  wf := dot_S3200x288_S288x300_S3200x300_1_0_0_1_n_n_wf
def dot_S3200x300_S300x300_S3200x300_1_0_0_1_n_n : DotDims S3200x300 S300x300 S3200x300 where
  lhsContracting := [1]
  rhsContracting := [0]
  lhsNonContracting := [0]
  rhsNonContracting := [1]
  lhsBatch := []
  rhsBatch := []
  wf := dot_S3200x300_S300x300_S3200x300_1_0_0_1_n_n_wf
def dot_S3200x300_S300x128_S3200x128_1_0_0_1_n_n : DotDims S3200x300 S300x128 S3200x128 where
  lhsContracting := [1]
  rhsContracting := [0]
  lhsNonContracting := [0]
  rhsNonContracting := [1]
  lhsBatch := []
  rhsBatch := []
  wf := dot_S3200x300_S300x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x300_S2000x300_1_0_0_1_n_n : DotDims S2000x256 S256x300 S2000x300 where
  lhsContracting := [1]
  rhsContracting := [0]
  lhsNonContracting := [0]
  rhsNonContracting := [1]
  lhsBatch := []
  rhsBatch := []
  wf := dot_S2000x256_S256x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x300_S300x128_S2000x128_1_0_0_1_n_n : DotDims S2000x300 S300x128 S2000x128 where
  lhsContracting := [1]
  rhsContracting := [0]
  lhsNonContracting := [0]
  rhsNonContracting := [1]
  lhsBatch := []
  rhsBatch := []
  wf := dot_S2000x300_S300x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v6) S3200x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S288x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S300x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S3200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S300x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S288x300 : Shape := ⟨2, ![288, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S256x300 : Shape := ⟨2, ![256, 300]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S800000x300 : Shape := ⟨2, ![800000, 300]⟩
abbrev S1x300 : Shape := ⟨2, ![1, 300]⟩
abbrev S1x128 : Shape := ⟨2, ![1, 128]⟩
abbrev S50000x256 : Shape := ⟨2, ![50000, 256]⟩
abbrev S50000x300 : Shape := ⟨2, ![50000, 300]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S288x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x128, .f32⟩
  | .hbm, ⟨9, _⟩ => ⟨S128, .f32⟩
  | .hbm, ⟨10, _⟩ => ⟨S256x300, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S300x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x288, .f32⟩
  | .hbm, ⟨45, _⟩ => ⟨S800000x300, .f32⟩
  | .hbm, ⟨46, _⟩ => ⟨S1x300, .f32⟩
  | .hbm, ⟨47, _⟩ => ⟨S800000x300, .f32⟩
  | .hbm, ⟨48, _⟩ => ⟨S800000x300, .f32⟩
  | .hbm, ⟨49, _⟩ => ⟨S_, .f32⟩
  | .hbm, ⟨50, _⟩ => ⟨S800000x300, .f32⟩
  | .hbm, ⟨51, _⟩ => ⟨S800000x300, .f32⟩
  | .hbm, ⟨52, _⟩ => ⟨S800000x300, .f32⟩
  | .hbm, ⟨53, _⟩ => ⟨S1x300, .f32⟩
  | .hbm, ⟨54, _⟩ => ⟨S800000x300, .f32⟩
  | .hbm, ⟨55, _⟩ => ⟨S800000x300, .f32⟩
  | .hbm, ⟨56, _⟩ => ⟨S_, .f32⟩
  | .hbm, ⟨57, _⟩ => ⟨S800000x300, .f32⟩
  | .hbm, ⟨58, _⟩ => ⟨S800000x300, .f32⟩
  | .hbm, ⟨59, _⟩ => ⟨S800000x128, .f32⟩
  | .hbm, ⟨60, _⟩ => ⟨S1x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x256, .f32⟩
  | .hbm, ⟨68, _⟩ => ⟨S50000x300, .f32⟩
  | .hbm, ⟨69, _⟩ => ⟨S1x300, .f32⟩
  | .hbm, ⟨70, _⟩ => ⟨S50000x300, .f32⟩
  | .hbm, ⟨71, _⟩ => ⟨S50000x300, .f32⟩
  | .hbm, ⟨72, _⟩ => ⟨S_, .f32⟩
  | .hbm, ⟨73, _⟩ => ⟨S50000x300, .f32⟩
  | .hbm, ⟨74, _⟩ => ⟨S50000x300, .f32⟩
  | .hbm, ⟨75, _⟩ => ⟨S50000x300, .f32⟩
  | .hbm, ⟨76, _⟩ => ⟨S1x300, .f32⟩
  | .hbm, ⟨77, _⟩ => ⟨S50000x300, .f32⟩
  | .hbm, ⟨78, _⟩ => ⟨S50000x300, .f32⟩
  | .hbm, ⟨79, _⟩ => ⟨S_, .f32⟩
  | .hbm, ⟨80, _⟩ => ⟨S50000x300, .f32⟩
  | .hbm, ⟨81, _⟩ => ⟨S50000x300, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S64x128, .f32⟩
  | .hbm, ⟨88, _⟩ => ⟨S50000x1, .i32⟩
  | .hbm, ⟨89, _⟩ => ⟨S64x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S64, .f32⟩
  | .hbm, ⟨94, _⟩ => ⟨S50000x1, .i32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x128, .f32⟩
  | .hbm, ⟨101, _⟩ => ⟨S64x128, .f32⟩
  | .hbm, ⟨102, _⟩ => ⟨S64x128, .f32⟩
  | .hbm, ⟨103, _⟩ => ⟨S1x128, .f32⟩
  | .hbm, ⟨104, _⟩ => ⟨S64x128, .f32⟩
  | .hbm, ⟨105, _⟩ => ⟨S64x128, .f32⟩
  | .hbm, ⟨106, _⟩ => ⟨S_, .f32⟩
  | .hbm, ⟨107, _⟩ => ⟨S64x128, .f32⟩
  | .hbm, ⟨108, _⟩ => ⟨S64x128, .f32⟩
  | .hbm, ⟨109, _⟩ => ⟨S64x128, .f32⟩
  | .hbm, ⟨110, _⟩ => ⟨S1x128, .f32⟩
  | .hbm, ⟨111, _⟩ => ⟨S64x128, .f32⟩
  | .hbm, ⟨112, _⟩ => ⟨S64x128, .f32⟩
  | .hbm, ⟨113, _⟩ => ⟨S_, .f32⟩
  | .hbm, ⟨114, _⟩ => ⟨S64x128, .f32⟩
  | .hbm, ⟨115, _⟩ => ⟨S64x128, .f32⟩
  | .hbm, ⟨116, _⟩ => ⟨S64x1, .f32⟩
  | .hbm, ⟨117, _⟩ => ⟨S1x1, .f32⟩
  | .hbm, ⟨118, _⟩ => ⟨S64x1, .f32⟩
  | .hbm, ⟨119, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_cst : Ref sig .tc := ⟨.hbm, 56, rfl⟩
abbrev main_call1_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_cst : Ref sig .tc := ⟨.hbm, 72, rfl⟩
abbrev main_call2_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call3_cst : Ref sig .tc := ⟨.hbm, 79, rfl⟩
abbrev main_call3_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_3 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_4 : Ref sig .tc := ⟨.hbm, 90, rfl⟩
abbrev main_v54 : Ref sig .tc := ⟨.hbm, 91, rfl⟩
abbrev main_cst_5 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_6 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call4_cst : Ref sig .tc := ⟨.hbm, 106, rfl⟩
abbrev main_call4_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call5_cst : Ref sig .tc := ⟨.hbm, 113, rfl⟩
abbrev main_call5_v0 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S300_S1x300_1 : S300.BroadcastsInDim S1x300 (![1] : Fin 1 → Fin S1x300.rank)
  bcast_S1x300_S800000x300_0_1 : S1x300.BroadcastsInDim S800000x300 (![0, 1] : Fin 2 → Fin S800000x300.rank)
  bcast_S_S800000x300 : S_.BroadcastsInDim S800000x300 (![] : Fin 0 → Fin S800000x300.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x128_S800000x1_S800000x128_1_0_n_n_0_1_1128_wf : GatherDims.WF S50000x128 S800000x1 S800000x128 [1] [0] [] [0] [] 1 ![1, 128]
  dot_S800000x288_S288x300_S800000x300_1_0_0_1_n_n_wf : DotDims.WF S800000x288 S288x300 S800000x300 [1] [0] [0] [1] [] []
  dot_S800000x300_S300x300_S800000x300_1_0_0_1_n_n_wf : DotDims.WF S800000x300 S300x300 S800000x300 [1] [0] [0] [1] [] []
  dot_S800000x300_S300x128_S800000x128_1_0_0_1_n_n_wf : DotDims.WF S800000x300 S300x128 S800000x128 [1] [0] [0] [1] [] []
  scatter_S50000x128_S800000x1_S800000x128_1_0_0_1_wf : ScatterDims.WF S50000x128 S800000x1 S800000x128 [1] [0] [0] 1
  dot_S50000x256_S256x300_S50000x300_1_0_0_1_n_n_wf : DotDims.WF S50000x256 S256x300 S50000x300 [1] [0] [0] [1] [] []
  dot_S50000x300_S300x300_S50000x300_1_0_0_1_n_n_wf : DotDims.WF S50000x300 S300x300 S50000x300 [1] [0] [0] [1] [] []
  dot_S50000x300_S300x128_S50000x128_1_0_0_1_n_n_wf : DotDims.WF S50000x300 S300x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x300_S800000x300_1_0_0_1_n_n : DotDims S800000x288 S288x300 S800000x300 where
  lhsContracting := [1]
  rhsContracting := [0]
  lhsNonContracting := [0]
  rhsNonContracting := [1]
  lhsBatch := []
  rhsBatch := []
  wf := dot_S800000x288_S288x300_S800000x300_1_0_0_1_n_n_wf
def dot_S800000x300_S300x300_S800000x300_1_0_0_1_n_n : DotDims S800000x300 S300x300 S800000x300 where
  lhsContracting := [1]
  rhsContracting := [0]
  lhsNonContracting := [0]
  rhsNonContracting := [1]
  lhsBatch := []
  rhsBatch := []
  wf := dot_S800000x300_S300x300_S800000x300_1_0_0_1_n_n_wf
def dot_S800000x300_S300x128_S800000x128_1_0_0_1_n_n : DotDims S800000x300 S300x128 S800000x128 where
  lhsContracting := [1]
  rhsContracting := [0]
  lhsNonContracting := [0]
  rhsNonContracting := [1]
  lhsBatch := []
  rhsBatch := []
  wf := dot_S800000x300_S300x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x300_S50000x300_1_0_0_1_n_n : DotDims S50000x256 S256x300 S50000x300 where
  lhsContracting := [1]
  rhsContracting := [0]
  lhsNonContracting := [0]
  rhsNonContracting := [1]
  lhsBatch := []
  rhsBatch := []
  wf := dot_S50000x256_S256x300_S50000x300_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KRegion0.lean ====
/-
  The first launch (the message network, 800000 rows in 250 blocks of 3200): what one grid point does to the staging
  buffers. Each of the seven operands is read whole and left in place; the output buffer receives the three-layer
  perceptron of the row block (the payload the skeleton names). Stated at a parameter `V`, the buffer contents when the
  launch is entered, so that the run can instantiate it after the host operations that build the operands.
-/
import proofs.«419926_j60730837565915_1_alg».proof.Proof.Gen.Kernel.Launch
import proofs.«419926_j60730837565915_1_alg».proof.Proof.Gen.Kernel.Skeleton
import proofs.«419926_j60730837565915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks: window `w`'s block at grid point `t` is the rectangle of its array the index map selects,
    read off the array as the region finds it -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: where the point fetches it, by the fetch; where it
    does not, the block index has not moved since the last fetch and the body leaves the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/
abbrev r0_0 : Rect S3200x288 := Rect.unit (s := S3200x288) ![0, 0] S3200x288.size inb_S3200x288_S3200x288_0_0
abbrev r0_1 : Rect S288x300 := Rect.unit (s := S288x300) ![0, 0] S288x300.size inb_S288x300_S288x300_0_0
abbrev r0_2 : Rect S1x300 := Rect.unit (s := S1x300) ![0, 0] S1x300.size inb_S1x300_S1x300_0_0
abbrev r0_3 : Rect S300x300 := Rect.unit (s := S300x300) ![0, 0] S300x300.size inb_S300x300_S300x300_0_0
abbrev r0_4 : Rect S1x300 := Rect.unit (s := S1x300) ![0, 0] S1x300.size inb_S1x300_S1x300_0_0
abbrev r0_5 : Rect S300x128 := Rect.unit (s := S300x128) ![0, 0] S300x128.size inb_S300x128_S300x128_0_0
abbrev r0_6 : Rect S1x128 := Rect.unit (s := S1x128) ![0, 0] S1x128.size inb_S1x128_S1x128_0_0
abbrev r0_7 : Rect S3200x128 := Rect.unit (s := S3200x128) ![0, 0] S3200x128.size inb_S3200x128_S3200x128_0_0

/-- The output window's staging buffer after the body, from the input blocks: the one store of the three-layer
    perceptron's result, as a piece covering the buffer. -/
def out0_7 (x0 : Vec F S3200x288 .f32) (x1 : Vec F S288x300 .f32) (x2 : Vec F S1x300 .f32) (x3 : Vec F S300x300 .f32) (x4 : Vec F S1x300 .f32) (x5 : Vec F S300x128 .f32) (x6 : Vec F S1x128 .f32) : Vec F S3200x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer. -/
theorem cover0_7 (p0 : Vec F S3200x128 .f32) (y : S3200x128.Idx) :
    ∃ pc ∈ ([⟨r0_7, p0⟩] : List (View.Piece (Elt F) S3200x128 .f32)), y ∈ pc.1.set :=
  View.cover_of_tiled [⟨r0_7, p0⟩] S3200x128.size (by rfl) y

set_option maxHeartbeats 4000000 in
/-- The kernel body on whole staging buffers: the seven inputs are read and left as they were, and the output buffer
    ends at the perceptron's result of the inputs. -/
theorem sound_kernel0 (c : Dev nD) (E : Set ℕ) (i : grid0.Coords) (arg0 : Memref sig .tc .vmem S3200x288 .f32) (harg0 : arg0.IsWhole) (arg1 : Memref sig .tc .vmem S288x300 .f32) (harg1 : arg1.IsWhole) (arg2 : Memref sig .tc .vmem S1x300 .f32) (harg2 : arg2.IsWhole) (arg3 : Memref sig .tc .vmem S300x300 .f32) (harg3 : arg3.IsWhole) (arg4 : Memref sig .tc .vmem S1x300 .f32) (harg4 : arg4.IsWhole) (arg5 : Memref sig .tc .vmem S300x128 .f32) (harg5 : arg5.IsWhole) (arg6 : Memref sig .tc .vmem S1x128 .f32) (harg6 : arg6.IsWhole) (arg7 : Memref sig .tc .vmem S3200x128 .f32) (harg7 : arg7.IsWhole)
    (x0 : Vec F S3200x288 .f32) (x1 : Vec F S288x300 .f32) (x2 : Vec F S1x300 .f32) (x3 : Vec F S300x300 .f32) (x4 : Vec F S1x300 .f32) (x5 : Vec F S300x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp3_pallas_kernel i arg0 harg0 arg1 harg1 arg2 harg2 arg3 harg3 arg4 harg4 arg5 harg5 arg6 harg6 arg7 harg7) K := by
  simp only [cc0__mlp3_pallas_kernel_eq_skeleton]; unfold cc0__mlp3_pallas_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The arrays as the region finds them; after the body at point `t` every input buffer still holds its block and the
    output buffer the perceptron's result of the input blocks; nothing owed, full shares, the class's invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second launch (the node network, 50000 rows in 25 blocks of 2000): what one grid point does to the staging
  buffers. Each of the seven operands is read whole and left in place; the output buffer receives the three-layer
  perceptron of the row block (the payload the skeleton names). Stated at a parameter `V`, the buffer contents when the
  launch is entered, so that the run can instantiate it after the host operations that build the operands.
-/
import proofs.«419926_j60730837565915_1_alg».proof.Proof.Gen.Kernel.Launch
import proofs.«419926_j60730837565915_1_alg».proof.Proof.Gen.Kernel.Skeleton
import proofs.«419926_j60730837565915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks: window `w`'s block at grid point `t` is the rectangle of its array the index map selects,
    read off the array as the region finds it -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point: where the point fetches it, by the fetch; where it
    does not, the block index has not moved since the last fetch and the body leaves the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/
abbrev r1_0 : Rect S2000x256 := Rect.unit (s := S2000x256) ![0, 0] S2000x256.size inb_S2000x256_S2000x256_0_0
abbrev r1_1 : Rect S256x300 := Rect.unit (s := S256x300) ![0, 0] S256x300.size inb_S256x300_S256x300_0_0
abbrev r1_2 : Rect S1x300 := Rect.unit (s := S1x300) ![0, 0] S1x300.size inb_S1x300_S1x300_0_0
abbrev r1_3 : Rect S300x300 := Rect.unit (s := S300x300) ![0, 0] S300x300.size inb_S300x300_S300x300_0_0
abbrev r1_4 : Rect S1x300 := Rect.unit (s := S1x300) ![0, 0] S1x300.size inb_S1x300_S1x300_0_0
abbrev r1_5 : Rect S300x128 := Rect.unit (s := S300x128) ![0, 0] S300x128.size inb_S300x128_S300x128_0_0
abbrev r1_6 : Rect S1x128 := Rect.unit (s := S1x128) ![0, 0] S1x128.size inb_S1x128_S1x128_0_0
abbrev r1_7 : Rect S2000x128 := Rect.unit (s := S2000x128) ![0, 0] S2000x128.size inb_S2000x128_S2000x128_0_0

/-- The output window's staging buffer after the body, from the input blocks: the one store of the three-layer
    perceptron's result, as a piece covering the buffer. -/
def out1_7 (x0 : Vec F S2000x256 .f32) (x1 : Vec F S256x300 .f32) (x2 : Vec F S1x300 .f32) (x3 : Vec F S300x300 .f32) (x4 : Vec F S1x300 .f32) (x5 : Vec F S300x128 .f32) (x6 : Vec F S1x128 .f32) : Vec F S2000x128 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store's rectangle is the whole buffer. -/
theorem cover1_7 (p0 : Vec F S2000x128 .f32) (y : S2000x128.Idx) :
    ∃ pc ∈ ([⟨r1_7, p0⟩] : List (View.Piece (Elt F) S2000x128 .f32)), y ∈ pc.1.set :=
  View.cover_of_tiled [⟨r1_7, p0⟩] S2000x128.size (by rfl) y

set_option maxHeartbeats 4000000 in
/-- The kernel body on whole staging buffers: the seven inputs are read and left as they were, and the output buffer
    ends at the perceptron's result of the inputs. -/
theorem sound_kernel1 (c : Dev nD) (E : Set ℕ) (i : grid1.Coords) (arg0 : Memref sig .tc .vmem S2000x256 .f32) (harg0 : arg0.IsWhole) (arg1 : Memref sig .tc .vmem S256x300 .f32) (harg1 : arg1.IsWhole) (arg2 : Memref sig .tc .vmem S1x300 .f32) (harg2 : arg2.IsWhole) (arg3 : Memref sig .tc .vmem S300x300 .f32) (harg3 : arg3.IsWhole) (arg4 : Memref sig .tc .vmem S1x300 .f32) (harg4 : arg4.IsWhole) (arg5 : Memref sig .tc .vmem S300x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x256 .f32) (x1 : Vec F S256x300 .f32) (x2 : Vec F S1x300 .f32) (x3 : Vec F S300x300 .f32) (x4 : Vec F S1x300 .f32) (x5 : Vec F S300x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp3_pallas_kernel i arg0 harg0 arg1 harg1 arg2 harg2 arg3 harg3 arg4 harg4 arg5 harg5 arg6 harg6 arg7 harg7) K := by
  simp only [cc1__mlp3_pallas_kernel_eq_skeleton]; unfold cc1__mlp3_pallas_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The arrays as the region finds them; after the body at point `t` every input buffer still holds its block and the
    output buffer the perceptron's result of the input blocks; nothing owed, full shares, the class's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of the graph network's program: twelve segments — four stretches of host operations (cutting the edge
  list's two rows, taking the node rows at the targets and at the sources, putting the message network's input together),
  the first launch, the stretch that sums the messages per target node, the second launch, and five stretches for the
  pooling and the graph-level network — chained through the contents of every unscoped buffer at each boundary. The
  result: every execution ends, and the final memory holds each buffer at the last contents of that fold.
-/
import proofs.«419926_j60730837565915_1_alg».proof.Proof.KRegion0
import proofs.«419926_j60730837565915_1_alg».proof.Proof.KRegion1
import proofs.«419926_j60730837565915_1_alg».proof.Proof.Gen.Kernel.Regions
import proofs.«419926_j60730837565915_1_alg».proof.Proof.Gen.Kernel.Launch
import proofs.«419926_j60730837565915_1_alg».proof.Proof.Gen.Kernel.Skeleton
import proofs.«419926_j60730837565915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the index rows are cut out of the edge list. -/
abbrev W1 : Dev nD → Valuation τ sig (Elt F) := fun c => StableHlo.after hostOps0 (W0 m ρ c)
/-- After the rows of the target nodes are taken. -/
abbrev W2 : Dev nD → Valuation τ sig (Elt F) := fun c => StableHlo.after hostOps0_1 (W1 m ρ c)
/-- After the rows of the source nodes are taken. -/
abbrev W3 : Dev nD → Valuation τ sig (Elt F) := fun c => StableHlo.after hostOps0_2 (W2 m ρ c)
/-- After the message network's input is put together and its biases laid out as rows: the first launch's entry. -/
abbrev W4 : Dev nD → Valuation τ sig (Elt F) := fun c => StableHlo.after hostOps0_3 (W3 m ρ c)
abbrev U4 : (c : Dev nD) → (b : Ref sig .tc) → Buf (Elt F) ((c : Thread nD τ).loc b) := fun c b => W4 m ρ c b

/-- At the first launch's exit: its arrays at what the write-backs leave, every other buffer as entered. -/
def W5 (c : Dev nD) : Valuation τ sig (Elt F) :=
  Pipeline.withArrays spec0 c (W4 m ρ c) fun w => (dat0 (U4 m ρ) c).arrAt w cfg0.N
theorem W5_arr (c : Dev nD) (w : Fin cfg0.W) :
    W5 m ρ c (Proc.devRef .tc (Pipeline.arrRef spec0 w)) = (dat0 (U4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev U5 : (c : Dev nD) → (b : Ref sig .tc) → Buf (Elt F) ((c : Thread nD τ).loc b) := fun c b => W5 m ρ c b
theorem hF0 (c : Dev nD) (w : Fin cfg0.W) : (dat0 (U4 m ρ) c).arrAt w cfg0.N = U5 m ρ c (Pipeline.arrRef spec0 w) :=
  (W5_arr m ρ c w).symm
theorem hrest0 (c : Dev nD) : ∀ b, b ∉ Finset.univ.image (Pipeline.arrRef spec0) → U5 m ρ c b = U4 m ρ c b :=
  fun b hb => W5_of_ne m ρ c b fun w e => hb (Finset.mem_image.mpr ⟨w, Finset.mem_univ _, e⟩)

/-- After the messages are summed per target node and the node network's input is put together: the second launch's entry. -/
abbrev W6 : Dev nD → Valuation τ sig (Elt F) := fun c => StableHlo.after hostOps1 (W5 m ρ c)
abbrev U6 : (c : Dev nD) → (b : Ref sig .tc) → Buf (Elt F) ((c : Thread nD τ).loc b) := fun c b => W6 m ρ c b

/-- At the second launch's exit. -/
def W7 (c : Dev nD) : Valuation τ sig (Elt F) :=
  Pipeline.withArrays spec1 c (W6 m ρ c) fun w => (dat1 (U6 m ρ) c).arrAt w cfg1.N
theorem W7_arr (c : Dev nD) (w : Fin cfg1.W) :
    W7 m ρ c (Proc.devRef .tc (Pipeline.arrRef spec1 w)) = (dat1 (U6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev U7 : (c : Dev nD) → (b : Ref sig .tc) → Buf (Elt F) ((c : Thread nD τ).loc b) := fun c b => W7 m ρ c b
theorem hF1 (c : Dev nD) (w : Fin cfg1.W) : (dat1 (U6 m ρ) c).arrAt w cfg1.N = U7 m ρ c (Pipeline.arrRef spec1 w) :=
  (W7_arr m ρ c w).symm
theorem hrest1 (c : Dev nD) : ∀ b, b ∉ Finset.univ.image (Pipeline.arrRef spec1) → U7 m ρ c b = U6 m ρ c b :=
  fun b hb => W7_of_ne m ρ c b fun w e => hb (Finset.mem_image.mpr ⟨w, Finset.mem_univ _, e⟩)

/-- After the pooling and the first layer of the graph network. -/
abbrev W8 : Dev nD → Valuation τ sig (Elt F) := fun c => StableHlo.after hostOps2 (W7 m ρ c)
abbrev W9 : Dev nD → Valuation τ sig (Elt F) := fun c => StableHlo.after hostOps2_1 (W8 m ρ c)
abbrev W10 : Dev nD → Valuation τ sig (Elt F) := fun c => StableHlo.after hostOps2_2 (W9 m ρ c)
abbrev W11 : Dev nD → Valuation τ sig (Elt F) := fun c => StableHlo.after hostOps2_3 (W10 m ρ c)
/-- At the return. -/
abbrev W12 : Dev nD → Valuation τ sig (Elt F) := fun c => StableHlo.after hostOps2_4 (W11 m ρ c)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (U4 m ρ) c
  | ⟨1, _⟩ => fun c => dat1 (U6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The launches as segments -/

set_option backward.isDefEq.respectTransparency.types false in
/-- Launch 0 over the thread state: entered with every unscoped buffer at `W4`, left with them at `W5`. Its arrays
    are split out of the unscoped buffers and put back at what the write-backs leave; the generator register goes into
    the class's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (U4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U4 m ρ c) (U5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W6`, left with them at `W7`. Its arrays
    are split out of the unscoped buffers and put back at what the write-backs leave; the generator register goes into
    the class's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (U6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U6 m ρ c) (U7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev allSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .host (hseg hostOps2_3 hostOps2_3_sub hostOps2_3_fresh (W10 m ρ)),
    .host (hseg hostOps2_4 hostOps2_4_sub hostOps2_4_fresh (W11 m ρ)) ]

theorem main_run (c : Dev nD) : main (F := F) c = Pipeline.Seg.run (allSegs m ρ) := (main_chain c).trans (by chain_rfl)

set_option backward.isDefEq.respectTransparency.types false in
/-- THE RUN: from any memory with zero counters every weakly fair execution of @main terminates, nothing faulting,
    and every final memory holds each unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.KFold.lean ====
/-
  Reading the fold of buffer contents: a buffer that a stretch of host operations does not write keeps its contents
  across it; a launch changes only its output array (its other arrays are inputs, left as entered). Hence every argument
  of the program reaches the return as launched, and the run can be posted as: the result buffer at the fold's last
  contents, every argument unchanged.
-/
import proofs.«419926_j60730837565915_1_alg».proof.Proof.KRun
import proofs.«419926_j60730837565915_1_alg».proof.Proof.Gen.Kernel.Launch
import proofs.«419926_j60730837565915_1_alg».proof.Proof.Gen.Kernel.Skeleton
import proofs.«419926_j60730837565915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A stretch leaves the buffers it does not write -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W9_of (c : Dev nD) (r : Ref sig .tc) (h : r ∉ hostOps2_1_W) : W9 m ρ c (Proc.devRef .tc r) = W8 m ρ c (Proc.devRef .tc r) :=
  StableHlo.after_of_writes_sub hostOps2_1 _ hostOps2_1_writes h
theorem W10_of (c : Dev nD) (r : Ref sig .tc) (h : r ∉ hostOps2_2_W) : W10 m ρ c (Proc.devRef .tc r) = W9 m ρ c (Proc.devRef .tc r) :=
  StableHlo.after_of_writes_sub hostOps2_2 _ hostOps2_2_writes h
theorem W11_of (c : Dev nD) (r : Ref sig .tc) (h : r ∉ hostOps2_3_W) : W11 m ρ c (Proc.devRef .tc r) = W10 m ρ c (Proc.devRef .tc r) :=
  StableHlo.after_of_writes_sub hostOps2_3 _ hostOps2_3_writes h
theorem W12_of (c : Dev nD) (r : Ref sig .tc) (h : r ∉ hostOps2_4_W) : W12 m ρ c (Proc.devRef .tc r) = W11 m ρ c (Proc.devRef .tc r) :=
  StableHlo.after_of_writes_sub hostOps2_4 _ hostOps2_4_writes h

/-- Launch 0 changes its output array only: an input window's array ends as entered, and a buffer that is no array of
    the launch is not touched. -/
theorem W5_keep (c : Dev nD) (r : Ref sig .tc) (h : r ≠ main_v10) : W5 m ρ c (Proc.devRef .tc r) = W4 m ρ c (Proc.devRef .tc r) := by
  by_cases hr : ∃ w, Pipeline.arrRef spec0 w = r
  · obtain ⟨w, rfl⟩ := hr
    have hw : (cfg0.win w).isOut = false := by
      revert h; revert w; decide
    rw [W5_arr]
    exact ((dat0 (U4 m ρ) c).arrAt_in w hw _).trans (A_eq0 (U4 m ρ) c w)
  · exact W5_of_ne m ρ c r (fun w e => hr ⟨w, e⟩)

/-- Launch 1 changes its output array only: an input window's array ends as entered, and a buffer that is no array of
    the launch is not touched. -/
theorem W7_keep (c : Dev nD) (r : Ref sig .tc) (h : r ≠ main_v18) : W7 m ρ c (Proc.devRef .tc r) = W6 m ρ c (Proc.devRef .tc r) := by
  by_cases hr : ∃ w, Pipeline.arrRef spec1 w = r
  · obtain ⟨w, rfl⟩ := hr
    have hw : (cfg1.win w).isOut = false := by
      revert h; revert w; decide
    rw [W7_arr]
    exact ((dat1 (U6 m ρ) c).arrAt_in w hw _).trans (A_eq1 (U6 m ρ) c w)
  · exact W7_of_ne m ρ c r (fun w e => hr ⟨w, e⟩)

/-- A buffer nothing writes holds its launch contents at the return. -/
theorem W12_unwritten (c : Dev nD) (r : Ref sig .tc) (h0 : r ∉ hostOps0_W) (h1 : r ∉ hostOps0_1_W) (h2 : r ∉ hostOps0_2_W)
    (h3 : r ∉ hostOps0_3_W) (h5 : r ≠ main_v10) (h6 : r ∉ hostOps1_W) (h7 : r ≠ main_v18) (h8 : r ∉ hostOps2_W)
    (h9 : r ∉ hostOps2_1_W) (h10 : r ∉ hostOps2_2_W) (h11 : r ∉ hostOps2_3_W) (h12 : r ∉ hostOps2_4_W) :
    W12 m ρ c (Proc.devRef .tc r) = m ((c : Thread nD τ).loc r) :=
  (W12_of m ρ c r h12).trans <| (W11_of m ρ c r h11).trans <| (W10_of m ρ c r h10).trans <| (W9_of m ρ c r h9).trans <|
    (W8_of m ρ c r h8).trans <| (W7_keep m ρ c r h7).trans <| (W6_of m ρ c r h6).trans <| (W5_keep m ρ c r h5).trans <|
    (W4_of m ρ c r h3).trans <| (W3_of m ρ c r h2).trans <| (W2_of m ρ c r h1).trans <| (W1_of m ρ c r h0).trans rfl

/-- THE RUN, posted: the result buffer at the fold's last contents, every argument as launched. -/
theorem run_posted : θ_run defs (onTc (τ := τ) (main (F := F))) ⟨m, fun _ => 0, ρ⟩ (fun r => ∀ c : Dev nD,
      r.2.mem ((c.tc : Thread nD τ).loc main_v44) = W12 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v44 (by decide)),
      (h c _ (mem_uc main_arg0 (by decide))).trans (W12_unwritten m ρ c main_arg0 (by decide) (by decide) (by decide) (by decide) (by decide) (by decide) (by decide) (by decide) (by decide) (by decide) (by decide) (by decide)),
      (h c _ (mem_uc main_arg1 (by decide))).trans (W12_unwritten m ρ c main_arg1 (by decide) (by decide) (by decide) (by decide) (by decide) (by decide) (by decide) (by decide) (by decide) (by decide) (by decide) (by decide)),
      (h c _ (mem_uc main_arg2 (by decide))).trans (W12_unwritten m ρ c main_arg2 (by decide) (by decide) (by decide) (by decide) (by decide) (by decide) (by decide) (by decide) (by decide) (by decide) (by decide) (by decide)),
      (h c _ (mem_uc main_arg3 (by decide))).trans (W12_unwritten m ρ c main_arg3 (by decide) (by decide) (by decide) (by decide) (by decide) (by decide) (by decide) (by decide) (by decide) (by decide) (by decide) (by decide)),
      (h c _ (mem_uc main_arg4 (by decide))).trans (W12_unwritten m ρ c main_arg4 (by decide) (by decide) (by decide) (by decide) (by decide) (by decide) (by decide) (by decide) (by decide) (by decide) (by decide) (by decide)),
      (h c _ (mem_uc main_arg5 (by decide))).trans (W12_unwritten m ρ c main_arg5 (by decide) (by decide) (by decide) (by decide) (by decide) (by decide) (by decide) (by decide) (by decide) (by decide) (by decide) (by decide)),
      (h c _ (mem_uc main_arg6 (by decide))).trans (W12_unwritten m ρ c main_arg6 (by decide) (by decide) (by decide) (by decide) (by decide) (by decide) (by decide) (by decide) (by decide) (by decide) (by decide) (by decide)),
      (h c _ (mem_uc main_arg7 (by decide))).trans (W12_unwritten m ρ c main_arg7 (by decide) (by decide) (by decide) (by decide) (by decide) (by decide) (by decide) (by decide) (by decide) (by decide) (by decide) (by decide)),
      (h c _ (mem_uc main_arg8 (by decide))).trans (W12_unwritten m ρ c main_arg8 (by decide) (by decide) (by decide) (by decide) (by decide) (by decide) (by decide) (by decide) (by decide) (by decide) (by decide) (by decide)),
      (h c _ (mem_uc main_arg9 (by decide))).trans (W12_unwritten m ρ c main_arg9 (by decide) (by decide) (by decide) (by decide) (by decide) (by decide) (by decide) (by decide) (by decide) (by decide) (by decide) (by decide)),
      (h c _ (mem_uc main_arg10 (by decide))).trans (W12_unwritten m ρ c main_arg10 (by decide) (by decide) (by decide) (by decide) (by decide) (by decide) (by decide) (by decide) (by decide) (by decide) (by decide) (by decide)),
      (h c _ (mem_uc main_arg11 (by decide))).trans (W12_unwritten m ρ c main_arg11 (by decide) (by decide) (by decide) (by decide) (by decide) (by decide) (by decide) (by decide) (by decide) (by decide) (by decide) (by decide)),
      (h c _ (mem_uc main_arg12 (by decide))).trans (W12_unwritten m ρ c main_arg12 (by decide) (by decide) (by decide) (by decide) (by decide) (by decide) (by decide) (by decide) (by decide) (by decide) (by decide) (by decide)),
      (h c _ (mem_uc main_arg13 (by decide))).trans (W12_unwritten m ρ c main_arg13 (by decide) (by decide) (by decide) (by decide) (by decide) (by decide) (by decide) (by decide) (by decide) (by decide) (by decide) (by decide)),
      (h c _ (mem_uc main_arg14 (by decide))).trans (W12_unwritten m ρ c main_arg14 (by decide) (by decide) (by decide) (by decide) (by decide) (by decide) (by decide) (by decide) (by decide) (by decide) (by decide) (by decide)),
      (h c _ (mem_uc main_arg15 (by decide))).trans (W12_unwritten m ρ c main_arg15 (by decide) (by decide) (by decide) (by decide) (by decide) (by decide) (by decide) (by decide) (by decide) (by decide) (by decide) (by decide)),
      (h c _ (mem_uc main_arg16 (by decide))).trans (W12_unwritten m ρ c main_arg16 (by decide) (by decide) (by decide) (by decide) (by decide) (by decide) (by decide) (by decide) (by decide) (by decide) (by decide) (by decide)),
      (h c _ (mem_uc main_arg17 (by decide))).trans (W12_unwritten m ρ c main_arg17 (by decide) (by decide) (by decide) (by decide) (by decide) (by decide) (by decide) (by decide) (by decide) (by decide) (by decide) (by decide)),
      (h c _ (mem_uc main_arg18 (by decide))).trans (W12_unwritten m ρ c main_arg18 (by decide) (by decide) (by decide) (by decide) (by decide) (by decide) (by decide) (by decide) (by decide) (by decide) (by decide) (by decide)),
      (h c _ (mem_uc main_arg19 (by decide))).trans (W12_unwritten m ρ c main_arg19 (by decide) (by decide) (by decide) (by decide) (by decide) (by decide) (by decide) (by decide) (by decide) (by decide) (by decide) (by decide)),
      (h c _ (mem_uc main_arg20 (by decide))).trans (W12_unwritten m ρ c main_arg20 (by decide) (by decide) (by decide) (by decide) (by decide) (by decide) (by decide) (by decide) (by decide) (by decide) (by decide) (by decide)),
      (h c _ (mem_uc main_arg21 (by decide))).trans (W12_unwritten m ρ c main_arg21 (by decide) (by decide) (by decide) (by decide) (by decide) (by decide) (by decide) (by decide) (by decide) (by decide) (by decide) (by decide))⟩)
    (run_all m ρ)

end Cert.Kernel.Hand

end
-- ==== Proof.KIRegion0.lean ====
/-
  The first launch (the message network, 800000 rows in 250 blocks of 3200): what one grid point does to the staging
  buffers. Each of the seven operands is read whole and left in place; the output buffer receives the three-layer
  perceptron of the row block (the payload the skeleton names). Stated at a parameter `V`, the buffer contents when the
  launch is entered, so that the run can instantiate it after the host operations that build the operands.
-/
import proofs.«419926_j60730837565915_1_alg».proof.Proof.Gen.KernelIdeal.Launch
import proofs.«419926_j60730837565915_1_alg».proof.Proof.Gen.KernelIdeal.Skeleton
import proofs.«419926_j60730837565915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks: window `w`'s block at grid point `t` is the rectangle of its array the index map selects,
    read off the array as the region finds it -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: where the point fetches it, by the fetch; where it
    does not, the block index has not moved since the last fetch and the body leaves the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point: where the point fetches it, by the fetch; where it
    does not, the block index has not moved since the last fetch and the body leaves the buffer alone. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/
abbrev r0_0 : Rect S3200x288 := Rect.unit (s := S3200x288) ![0, 0] S3200x288.size inb_S3200x288_S3200x288_0_0
abbrev r0_1 : Rect S288x300 := Rect.unit (s := S288x300) ![0, 0] S288x300.size inb_S288x300_S288x300_0_0
abbrev r0_2 : Rect S1x300 := Rect.unit (s := S1x300) ![0, 0] S1x300.size inb_S1x300_S1x300_0_0
abbrev r0_3 : Rect S300x300 := Rect.unit (s := S300x300) ![0, 0] S300x300.size inb_S300x300_S300x300_0_0
abbrev r0_4 : Rect S1x300 := Rect.unit (s := S1x300) ![0, 0] S1x300.size inb_S1x300_S1x300_0_0
abbrev r0_5 : Rect S300x128 := Rect.unit (s := S300x128) ![0, 0] S300x128.size inb_S300x128_S300x128_0_0
abbrev r0_6 : Rect S1x128 := Rect.unit (s := S1x128) ![0, 0] S1x128.size inb_S1x128_S1x128_0_0
abbrev r0_7 : Rect S3200x128 := Rect.unit (s := S3200x128) ![0, 0] S3200x128.size inb_S3200x128_S3200x128_0_0

/-- The output window's staging buffer after the body, from the input blocks: the one store of the three-layer
    perceptron's result, as a piece covering the buffer. -/
def out0_7 (x0 : Vec F S3200x288 .f32) (x1 : Vec F S288x300 .f32) (x2 : Vec F S1x300 .f32) (x3 : Vec F S300x300 .f32) (x4 : Vec F S1x300 .f32) (x5 : Vec F S300x128 .f32) (x6 : Vec F S1x128 .f32) : Vec F S3200x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer. -/
theorem cover0_7 (p0 : Vec F S3200x128 .f32) (y : S3200x128.Idx) :
    ∃ pc ∈ ([⟨r0_7, p0⟩] : List (View.Piece (Elt F) S3200x128 .f32)), y ∈ pc.1.set :=
  View.cover_of_tiled [⟨r0_7, p0⟩] S3200x128.size (by rfl) y

set_option maxHeartbeats 4000000 in
/-- The kernel body on whole staging buffers: the seven inputs are read and left as they were, and the output buffer
    ends at the perceptron's result of the inputs. -/
theorem sound_kernel0 (c : Dev nD) (E : Set ℕ) (i : grid0.Coords) (arg0 : Memref sig .tc .vmem S3200x288 .f32) (harg0 : arg0.IsWhole) (arg1 : Memref sig .tc .vmem S288x300 .f32) (harg1 : arg1.IsWhole) (arg2 : Memref sig .tc .vmem S1x300 .f32) (harg2 : arg2.IsWhole) (arg3 : Memref sig .tc .vmem S300x300 .f32) (harg3 : arg3.IsWhole) (arg4 : Memref sig .tc .vmem S1x300 .f32) (harg4 : arg4.IsWhole) (arg5 : Memref sig .tc .vmem S300x128 .f32) (harg5 : arg5.IsWhole) (arg6 : Memref sig .tc .vmem S1x128 .f32) (harg6 : arg6.IsWhole) (arg7 : Memref sig .tc .vmem S3200x128 .f32) (harg7 : arg7.IsWhole)
    (x0 : Vec F S3200x288 .f32) (x1 : Vec F S288x300 .f32) (x2 : Vec F S1x300 .f32) (x3 : Vec F S300x300 .f32) (x4 : Vec F S1x300 .f32) (x5 : Vec F S300x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp3_pallas_kernel i arg0 harg0 arg1 harg1 arg2 harg2 arg3 harg3 arg4 harg4 arg5 harg5 arg6 harg6 arg7 harg7) K := by
  simp only [cc0__mlp3_pallas_kernel_eq_skeleton]; unfold cc0__mlp3_pallas_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The arrays as the region finds them; after the body at point `t` every input buffer still holds its block and the
    output buffer the perceptron's result of the input blocks; nothing owed, full shares, the class's invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second launch (the node network, 50000 rows in 25 blocks of 2000): what one grid point does to the staging
  buffers. Each of the seven operands is read whole and left in place; the output buffer receives the three-layer
  perceptron of the row block (the payload the skeleton names). Stated at a parameter `V`, the buffer contents when the
  launch is entered, so that the run can instantiate it after the host operations that build the operands.
-/
import proofs.«419926_j60730837565915_1_alg».proof.Proof.Gen.KernelIdeal.Launch
import proofs.«419926_j60730837565915_1_alg».proof.Proof.Gen.KernelIdeal.Skeleton
import proofs.«419926_j60730837565915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks: window `w`'s block at grid point `t` is the rectangle of its array the index map selects,
    read off the array as the region finds it -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point: where the point fetches it, by the fetch; where it
    does not, the block index has not moved since the last fetch and the body leaves the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point: where the point fetches it, by the fetch; where it
    does not, the block index has not moved since the last fetch and the body leaves the buffer alone. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/
abbrev r1_0 : Rect S2000x256 := Rect.unit (s := S2000x256) ![0, 0] S2000x256.size inb_S2000x256_S2000x256_0_0
abbrev r1_1 : Rect S256x300 := Rect.unit (s := S256x300) ![0, 0] S256x300.size inb_S256x300_S256x300_0_0
abbrev r1_2 : Rect S1x300 := Rect.unit (s := S1x300) ![0, 0] S1x300.size inb_S1x300_S1x300_0_0
abbrev r1_3 : Rect S300x300 := Rect.unit (s := S300x300) ![0, 0] S300x300.size inb_S300x300_S300x300_0_0
abbrev r1_4 : Rect S1x300 := Rect.unit (s := S1x300) ![0, 0] S1x300.size inb_S1x300_S1x300_0_0
abbrev r1_5 : Rect S300x128 := Rect.unit (s := S300x128) ![0, 0] S300x128.size inb_S300x128_S300x128_0_0
abbrev r1_6 : Rect S1x128 := Rect.unit (s := S1x128) ![0, 0] S1x128.size inb_S1x128_S1x128_0_0
abbrev r1_7 : Rect S2000x128 := Rect.unit (s := S2000x128) ![0, 0] S2000x128.size inb_S2000x128_S2000x128_0_0

/-- The output window's staging buffer after the body, from the input blocks: the one store of the three-layer
    perceptron's result, as a piece covering the buffer. -/
def out1_7 (x0 : Vec F S2000x256 .f32) (x1 : Vec F S256x300 .f32) (x2 : Vec F S1x300 .f32) (x3 : Vec F S300x300 .f32) (x4 : Vec F S1x300 .f32) (x5 : Vec F S300x128 .f32) (x6 : Vec F S1x128 .f32) : Vec F S2000x128 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store's rectangle is the whole buffer. -/
theorem cover1_7 (p0 : Vec F S2000x128 .f32) (y : S2000x128.Idx) :
    ∃ pc ∈ ([⟨r1_7, p0⟩] : List (View.Piece (Elt F) S2000x128 .f32)), y ∈ pc.1.set :=
  View.cover_of_tiled [⟨r1_7, p0⟩] S2000x128.size (by rfl) y

set_option maxHeartbeats 4000000 in
/-- The kernel body on whole staging buffers: the seven inputs are read and left as they were, and the output buffer
    ends at the perceptron's result of the inputs. -/
theorem sound_kernel1 (c : Dev nD) (E : Set ℕ) (i : grid1.Coords) (arg0 : Memref sig .tc .vmem S2000x256 .f32) (harg0 : arg0.IsWhole) (arg1 : Memref sig .tc .vmem S256x300 .f32) (harg1 : arg1.IsWhole) (arg2 : Memref sig .tc .vmem S1x300 .f32) (harg2 : arg2.IsWhole) (arg3 : Memref sig .tc .vmem S300x300 .f32) (harg3 : arg3.IsWhole) (arg4 : Memref sig .tc .vmem S1x300 .f32) (harg4 : arg4.IsWhole) (arg5 : Memref sig .tc .vmem S300x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x256 .f32) (x1 : Vec F S256x300 .f32) (x2 : Vec F S1x300 .f32) (x3 : Vec F S300x300 .f32) (x4 : Vec F S1x300 .f32) (x5 : Vec F S300x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp3_pallas_kernel i arg0 harg0 arg1 harg1 arg2 harg2 arg3 harg3 arg4 harg4 arg5 harg5 arg6 harg6 arg7 harg7) K := by
  simp only [cc1__mlp3_pallas_kernel_eq_skeleton]; unfold cc1__mlp3_pallas_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The arrays as the region finds them; after the body at point `t` every input buffer still holds its block and the
    output buffer the perceptron's result of the input blocks; nothing owed, full shares, the class's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of the graph network's program: twelve segments — four stretches of host operations (cutting the edge
  list's two rows, taking the node rows at the targets and at the sources, putting the message network's input together),
  the first launch, the stretch that sums the messages per target node, the second launch, and five stretches for the
  pooling and the graph-level network — chained through the contents of every unscoped buffer at each boundary. The
  result: every execution ends, and the final memory holds each buffer at the last contents of that fold.
-/
import proofs.«419926_j60730837565915_1_alg».proof.Proof.KIRegion0
import proofs.«419926_j60730837565915_1_alg».proof.Proof.KIRegion1
import proofs.«419926_j60730837565915_1_alg».proof.Proof.Gen.KernelIdeal.Regions
import proofs.«419926_j60730837565915_1_alg».proof.Proof.Gen.KernelIdeal.Launch
import proofs.«419926_j60730837565915_1_alg».proof.Proof.Gen.KernelIdeal.Skeleton
import proofs.«419926_j60730837565915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the index rows are cut out of the edge list. -/
abbrev W1 : Dev nD → Valuation τ sig (Elt F) := fun c => StableHlo.after hostOps0 (W0 m ρ c)
/-- After the rows of the target nodes are taken. -/
abbrev W2 : Dev nD → Valuation τ sig (Elt F) := fun c => StableHlo.after hostOps0_1 (W1 m ρ c)
/-- After the rows of the source nodes are taken. -/
abbrev W3 : Dev nD → Valuation τ sig (Elt F) := fun c => StableHlo.after hostOps0_2 (W2 m ρ c)
/-- After the message network's input is put together and its biases laid out as rows: the first launch's entry. -/
abbrev W4 : Dev nD → Valuation τ sig (Elt F) := fun c => StableHlo.after hostOps0_3 (W3 m ρ c)
abbrev U4 : (c : Dev nD) → (b : Ref sig .tc) → Buf (Elt F) ((c : Thread nD τ).loc b) := fun c b => W4 m ρ c b

/-- At the first launch's exit: its arrays at what the write-backs leave, every other buffer as entered. -/
def W5 (c : Dev nD) : Valuation τ sig (Elt F) :=
  Pipeline.withArrays spec0 c (W4 m ρ c) fun w => (dat0 (U4 m ρ) c).arrAt w cfg0.N
theorem W5_arr (c : Dev nD) (w : Fin cfg0.W) :
    W5 m ρ c (Proc.devRef .tc (Pipeline.arrRef spec0 w)) = (dat0 (U4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev U5 : (c : Dev nD) → (b : Ref sig .tc) → Buf (Elt F) ((c : Thread nD τ).loc b) := fun c b => W5 m ρ c b
theorem hF0 (c : Dev nD) (w : Fin cfg0.W) : (dat0 (U4 m ρ) c).arrAt w cfg0.N = U5 m ρ c (Pipeline.arrRef spec0 w) :=
  (W5_arr m ρ c w).symm
theorem hrest0 (c : Dev nD) : ∀ b, b ∉ Finset.univ.image (Pipeline.arrRef spec0) → U5 m ρ c b = U4 m ρ c b :=
  fun b hb => W5_of_ne m ρ c b fun w e => hb (Finset.mem_image.mpr ⟨w, Finset.mem_univ _, e⟩)

/-- After the messages are summed per target node and the node network's input is put together: the second launch's entry. -/
abbrev W6 : Dev nD → Valuation τ sig (Elt F) := fun c => StableHlo.after hostOps1 (W5 m ρ c)
abbrev U6 : (c : Dev nD) → (b : Ref sig .tc) → Buf (Elt F) ((c : Thread nD τ).loc b) := fun c b => W6 m ρ c b

/-- At the second launch's exit. -/
def W7 (c : Dev nD) : Valuation τ sig (Elt F) :=
  Pipeline.withArrays spec1 c (W6 m ρ c) fun w => (dat1 (U6 m ρ) c).arrAt w cfg1.N
theorem W7_arr (c : Dev nD) (w : Fin cfg1.W) :
    W7 m ρ c (Proc.devRef .tc (Pipeline.arrRef spec1 w)) = (dat1 (U6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev U7 : (c : Dev nD) → (b : Ref sig .tc) → Buf (Elt F) ((c : Thread nD τ).loc b) := fun c b => W7 m ρ c b
theorem hF1 (c : Dev nD) (w : Fin cfg1.W) : (dat1 (U6 m ρ) c).arrAt w cfg1.N = U7 m ρ c (Pipeline.arrRef spec1 w) :=
  (W7_arr m ρ c w).symm
theorem hrest1 (c : Dev nD) : ∀ b, b ∉ Finset.univ.image (Pipeline.arrRef spec1) → U7 m ρ c b = U6 m ρ c b :=
  fun b hb => W7_of_ne m ρ c b fun w e => hb (Finset.mem_image.mpr ⟨w, Finset.mem_univ _, e⟩)

/-- After the pooling and the first layer of the graph network. -/
abbrev W8 : Dev nD → Valuation τ sig (Elt F) := fun c => StableHlo.after hostOps2 (W7 m ρ c)
abbrev W9 : Dev nD → Valuation τ sig (Elt F) := fun c => StableHlo.after hostOps2_1 (W8 m ρ c)
abbrev W10 : Dev nD → Valuation τ sig (Elt F) := fun c => StableHlo.after hostOps2_2 (W9 m ρ c)
abbrev W11 : Dev nD → Valuation τ sig (Elt F) := fun c => StableHlo.after hostOps2_3 (W10 m ρ c)
/-- At the return. -/
abbrev W12 : Dev nD → Valuation τ sig (Elt F) := fun c => StableHlo.after hostOps2_4 (W11 m ρ c)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (U4 m ρ) c
  | ⟨1, _⟩ => fun c => dat1 (U6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The launches as segments -/

set_option backward.isDefEq.respectTransparency.types false in
/-- Launch 0 over the thread state: entered with every unscoped buffer at `W4`, left with them at `W5`. Its arrays
    are split out of the unscoped buffers and put back at what the write-backs leave; the generator register goes into
    the class's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (U4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U4 m ρ c) (U5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W6`, left with them at `W7`. Its arrays
    are split out of the unscoped buffers and put back at what the write-backs leave; the generator register goes into
    the class's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (U6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U6 m ρ c) (U7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev allSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .host (hseg hostOps2_3 hostOps2_3_sub hostOps2_3_fresh (W10 m ρ)),
    .host (hseg hostOps2_4 hostOps2_4_sub hostOps2_4_fresh (W11 m ρ)) ]

theorem main_run (c : Dev nD) : main (F := F) c = Pipeline.Seg.run (allSegs m ρ) := (main_chain c).trans (by chain_rfl)

set_option backward.isDefEq.respectTransparency.types false in
/-- THE RUN: from any memory with zero counters every weakly fair execution of @main terminates, nothing faulting,
    and every final memory holds each unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KIFold.lean ====
/-
  Reading the fold of buffer contents: a buffer that a stretch of host operations does not write keeps its contents
  across it; a launch changes only its output array (its other arrays are inputs, left as entered). Hence every argument
  of the program reaches the return as launched, and the run can be posted as: the result buffer at the fold's last
  contents, every argument unchanged.
-/
import proofs.«419926_j60730837565915_1_alg».proof.Proof.KIRun
import proofs.«419926_j60730837565915_1_alg».proof.Proof.Gen.KernelIdeal.Launch
import proofs.«419926_j60730837565915_1_alg».proof.Proof.Gen.KernelIdeal.Skeleton
import proofs.«419926_j60730837565915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A stretch leaves the buffers it does not write -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W9_of (c : Dev nD) (r : Ref sig .tc) (h : r ∉ hostOps2_1_W) : W9 m ρ c (Proc.devRef .tc r) = W8 m ρ c (Proc.devRef .tc r) :=
  StableHlo.after_of_writes_sub hostOps2_1 _ hostOps2_1_writes h
theorem W10_of (c : Dev nD) (r : Ref sig .tc) (h : r ∉ hostOps2_2_W) : W10 m ρ c (Proc.devRef .tc r) = W9 m ρ c (Proc.devRef .tc r) :=
  StableHlo.after_of_writes_sub hostOps2_2 _ hostOps2_2_writes h
theorem W11_of (c : Dev nD) (r : Ref sig .tc) (h : r ∉ hostOps2_3_W) : W11 m ρ c (Proc.devRef .tc r) = W10 m ρ c (Proc.devRef .tc r) :=
  StableHlo.after_of_writes_sub hostOps2_3 _ hostOps2_3_writes h
theorem W12_of (c : Dev nD) (r : Ref sig .tc) (h : r ∉ hostOps2_4_W) : W12 m ρ c (Proc.devRef .tc r) = W11 m ρ c (Proc.devRef .tc r) :=
  StableHlo.after_of_writes_sub hostOps2_4 _ hostOps2_4_writes h

/-- Launch 0 changes its output array only: an input window's array ends as entered, and a buffer that is no array of
    the launch is not touched. -/
theorem W5_keep (c : Dev nD) (r : Ref sig .tc) (h : r ≠ main_v10) : W5 m ρ c (Proc.devRef .tc r) = W4 m ρ c (Proc.devRef .tc r) := by
  by_cases hr : ∃ w, Pipeline.arrRef spec0 w = r
  · obtain ⟨w, rfl⟩ := hr
    have hw : (cfg0.win w).isOut = false := by
      revert h; revert w; decide
    rw [W5_arr]
    exact ((dat0 (U4 m ρ) c).arrAt_in w hw _).trans (A_eq0 (U4 m ρ) c w)
  · exact W5_of_ne m ρ c r (fun w e => hr ⟨w, e⟩)

/-- Launch 1 changes its output array only: an input window's array ends as entered, and a buffer that is no array of
    the launch is not touched. -/
theorem W7_keep (c : Dev nD) (r : Ref sig .tc) (h : r ≠ main_v18) : W7 m ρ c (Proc.devRef .tc r) = W6 m ρ c (Proc.devRef .tc r) := by
  by_cases hr : ∃ w, Pipeline.arrRef spec1 w = r
  · obtain ⟨w, rfl⟩ := hr
    have hw : (cfg1.win w).isOut = false := by
      revert h; revert w; decide
    rw [W7_arr]
    exact ((dat1 (U6 m ρ) c).arrAt_in w hw _).trans (A_eq1 (U6 m ρ) c w)
  · exact W7_of_ne m ρ c r (fun w e => hr ⟨w, e⟩)

/-- A buffer nothing writes holds its launch contents at the return. -/
theorem W12_unwritten (c : Dev nD) (r : Ref sig .tc) (h0 : r ∉ hostOps0_W) (h1 : r ∉ hostOps0_1_W) (h2 : r ∉ hostOps0_2_W)
    (h3 : r ∉ hostOps0_3_W) (h5 : r ≠ main_v10) (h6 : r ∉ hostOps1_W) (h7 : r ≠ main_v18) (h8 : r ∉ hostOps2_W)
    (h9 : r ∉ hostOps2_1_W) (h10 : r ∉ hostOps2_2_W) (h11 : r ∉ hostOps2_3_W) (h12 : r ∉ hostOps2_4_W) :
    W12 m ρ c (Proc.devRef .tc r) = m ((c : Thread nD τ).loc r) :=
  (W12_of m ρ c r h12).trans <| (W11_of m ρ c r h11).trans <| (W10_of m ρ c r h10).trans <| (W9_of m ρ c r h9).trans <|
    (W8_of m ρ c r h8).trans <| (W7_keep m ρ c r h7).trans <| (W6_of m ρ c r h6).trans <| (W5_keep m ρ c r h5).trans <|
    (W4_of m ρ c r h3).trans <| (W3_of m ρ c r h2).trans <| (W2_of m ρ c r h1).trans <| (W1_of m ρ c r h0).trans rfl

/-- THE RUN, posted: the result buffer at the fold's last contents, every argument as launched. -/
theorem run_posted : θ_run defs (onTc (τ := τ) (main (F := F))) ⟨m, fun _ => 0, ρ⟩ (fun r => ∀ c : Dev nD,
      r.2.mem ((c.tc : Thread nD τ).loc main_v44) = W12 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v44 (by decide)),
      (h c _ (mem_uc main_arg0 (by decide))).trans (W12_unwritten m ρ c main_arg0 (by decide) (by decide) (by decide) (by decide) (by decide) (by decide) (by decide) (by decide) (by decide) (by decide) (by decide) (by decide)),
      (h c _ (mem_uc main_arg1 (by decide))).trans (W12_unwritten m ρ c main_arg1 (by decide) (by decide) (by decide) (by decide) (by decide) (by decide) (by decide) (by decide) (by decide) (by decide) (by decide) (by decide)),
      (h c _ (mem_uc main_arg2 (by decide))).trans (W12_unwritten m ρ c main_arg2 (by decide) (by decide) (by decide) (by decide) (by decide) (by decide) (by decide) (by decide) (by decide) (by decide) (by decide) (by decide)),
      (h c _ (mem_uc main_arg3 (by decide))).trans (W12_unwritten m ρ c main_arg3 (by decide) (by decide) (by decide) (by decide) (by decide) (by decide) (by decide) (by decide) (by decide) (by decide) (by decide) (by decide)),
      (h c _ (mem_uc main_arg4 (by decide))).trans (W12_unwritten m ρ c main_arg4 (by decide) (by decide) (by decide) (by decide) (by decide) (by decide) (by decide) (by decide) (by decide) (by decide) (by decide) (by decide)),
      (h c _ (mem_uc main_arg5 (by decide))).trans (W12_unwritten m ρ c main_arg5 (by decide) (by decide) (by decide) (by decide) (by decide) (by decide) (by decide) (by decide) (by decide) (by decide) (by decide) (by decide)),
      (h c _ (mem_uc main_arg6 (by decide))).trans (W12_unwritten m ρ c main_arg6 (by decide) (by decide) (by decide) (by decide) (by decide) (by decide) (by decide) (by decide) (by decide) (by decide) (by decide) (by decide)),
      (h c _ (mem_uc main_arg7 (by decide))).trans (W12_unwritten m ρ c main_arg7 (by decide) (by decide) (by decide) (by decide) (by decide) (by decide) (by decide) (by decide) (by decide) (by decide) (by decide) (by decide)),
      (h c _ (mem_uc main_arg8 (by decide))).trans (W12_unwritten m ρ c main_arg8 (by decide) (by decide) (by decide) (by decide) (by decide) (by decide) (by decide) (by decide) (by decide) (by decide) (by decide) (by decide)),
      (h c _ (mem_uc main_arg9 (by decide))).trans (W12_unwritten m ρ c main_arg9 (by decide) (by decide) (by decide) (by decide) (by decide) (by decide) (by decide) (by decide) (by decide) (by decide) (by decide) (by decide)),
      (h c _ (mem_uc main_arg10 (by decide))).trans (W12_unwritten m ρ c main_arg10 (by decide) (by decide) (by decide) (by decide) (by decide) (by decide) (by decide) (by decide) (by decide) (by decide) (by decide) (by decide)),
      (h c _ (mem_uc main_arg11 (by decide))).trans (W12_unwritten m ρ c main_arg11 (by decide) (by decide) (by decide) (by decide) (by decide) (by decide) (by decide) (by decide) (by decide) (by decide) (by decide) (by decide)),
      (h c _ (mem_uc main_arg12 (by decide))).trans (W12_unwritten m ρ c main_arg12 (by decide) (by decide) (by decide) (by decide) (by decide) (by decide) (by decide) (by decide) (by decide) (by decide) (by decide) (by decide)),
      (h c _ (mem_uc main_arg13 (by decide))).trans (W12_unwritten m ρ c main_arg13 (by decide) (by decide) (by decide) (by decide) (by decide) (by decide) (by decide) (by decide) (by decide) (by decide) (by decide) (by decide)),
      (h c _ (mem_uc main_arg14 (by decide))).trans (W12_unwritten m ρ c main_arg14 (by decide) (by decide) (by decide) (by decide) (by decide) (by decide) (by decide) (by decide) (by decide) (by decide) (by decide) (by decide)),
      (h c _ (mem_uc main_arg15 (by decide))).trans (W12_unwritten m ρ c main_arg15 (by decide) (by decide) (by decide) (by decide) (by decide) (by decide) (by decide) (by decide) (by decide) (by decide) (by decide) (by decide)),
      (h c _ (mem_uc main_arg16 (by decide))).trans (W12_unwritten m ρ c main_arg16 (by decide) (by decide) (by decide) (by decide) (by decide) (by decide) (by decide) (by decide) (by decide) (by decide) (by decide) (by decide)),
      (h c _ (mem_uc main_arg17 (by decide))).trans (W12_unwritten m ρ c main_arg17 (by decide) (by decide) (by decide) (by decide) (by decide) (by decide) (by decide) (by decide) (by decide) (by decide) (by decide) (by decide)),
      (h c _ (mem_uc main_arg18 (by decide))).trans (W12_unwritten m ρ c main_arg18 (by decide) (by decide) (by decide) (by decide) (by decide) (by decide) (by decide) (by decide) (by decide) (by decide) (by decide) (by decide)),
      (h c _ (mem_uc main_arg19 (by decide))).trans (W12_unwritten m ρ c main_arg19 (by decide) (by decide) (by decide) (by decide) (by decide) (by decide) (by decide) (by decide) (by decide) (by decide) (by decide) (by decide)),
      (h c _ (mem_uc main_arg20 (by decide))).trans (W12_unwritten m ρ c main_arg20 (by decide) (by decide) (by decide) (by decide) (by decide) (by decide) (by decide) (by decide) (by decide) (by decide) (by decide) (by decide)),
      (h c _ (mem_uc main_arg21 (by decide))).trans (W12_unwritten m ρ c main_arg21 (by decide) (by decide) (by decide) (by decide) (by decide) (by decide) (by decide) (by decide) (by decide) (by decide) (by decide) (by decide))⟩)
    (run_all m ρ)

end Cert.KernelIdeal.Hand

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.LibRowOps.lean ====
/-
  Matrices of extended reals read ROW BY ROW, and the printed operations that act on rows.

  A multilayer perceptron acts on each row of its input matrix by itself: entry (p, h) of the result depends on row p of
  the input (and on the whole weight matrix and bias) only. This file names that structure. `rows1 f X` is the matrix
  whose row p is `f` of row p of `X` (`rows2`, `rows3`: of the rows p of two or three matrices with the same number of
  rows); `dense W b` is the affine map x ↦ x·W + b on a row; `relu` the positive part of a row; `cat2`, `cat3`, `cat5`
  put rows side by side; `lo` and `hi` cut a row in two.
  Then each printed operation is identified with its row form, as a whole array: a matrix product into the zero
  accumulator followed by a broadcast bias (the kernel's spelling: a cast to one row and a broadcast over the rows; the
  host's: two `broadcast_in_dim`), with and without the positive part; a concatenation of two, three or five matrices along
  the column axis; a unit-stride slice of columns; a gather of whole rows.
  Nothing here needs finiteness: sums and products of extended reals are only regrouped, never distributed or cancelled.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«419926_j60730837565915_1_alg».proof.Proof.LibContract
import proofs.«419926_j60730837565915_1_alg».proof.Proof.LibGatherRow

noncomputable section

open scoped BigOperators

namespace Idealize.ShloMosaic.RowOps

open Idealize.ShloMosaic Idealize.ShloMosaic.ValueIdx

/-- An `A × B` matrix of extended reals. -/
abbrev Mat (A B : Nat) : Type := FVec Ideal (⟨2, ![A, B]⟩ : Shape) .f32
/-- A vector of `B` extended reals, as a rank-1 array. -/
abbrev Arr (B : Nat) : Type := FVec Ideal (⟨1, ![B]⟩ : Shape) .f32

/-- Row `p` of a matrix. -/
def row {A C : Nat} (X : Mat A C) (p : Fin A) : Fin C → EReal := fun k => X (ix2 p k)

/-- The affine map of a layer on one row: `(x·W + b)[h] = Σₖ x[k]·W[k,h] + b[h]`. -/
def dense {K B : Nat} (W : Mat K B) (b : Arr B) (x : Fin K → EReal) : Fin B → EReal :=
  fun h => (∑ k : Fin K, x k * W (ix2 k h)) + b (ix1 h)

/-- The positive part of a row. -/
def relu {B : Nat} (y : Fin B → EReal) : Fin B → EReal := fun h => max (y h) 0

/-- Two rows side by side, as a row of length `n` (`n = a + b` wherever it is used). -/
def cat2 {a b n : Nat} (x : Fin a → EReal) (y : Fin b → EReal) : Fin n → EReal :=
  fun k => if h : k.val < a then x ⟨k.val, h⟩ else if h2 : k.val - a < b then y ⟨k.val - a, h2⟩ else 0

/-- Three rows side by side. -/
def cat3 {a b c n : Nat} (x : Fin a → EReal) (y : Fin b → EReal) (z : Fin c → EReal) : Fin n → EReal :=
  cat2 x (cat2 (n := b + c) y z)

/-- Five rows side by side. -/
def cat5 {a b c d e n : Nat} (x : Fin a → EReal) (y : Fin b → EReal) (z : Fin c → EReal) (u : Fin d → EReal)
    (v : Fin e → EReal) : Fin n → EReal :=
  cat2 x (cat2 (n := b + (c + (d + e))) y (cat2 (n := c + (d + e)) z (cat2 (n := d + e) u v)))

/-- The first `a` entries of a row of length `n`. -/
def lo {n : Nat} (a : Nat) (ha : a ≤ n) (x : Fin n → EReal) : Fin a → EReal := fun k => x ⟨k.val, by omega⟩
/-- The `b` entries of a row from position `a` on. -/
def hi {n : Nat} (a b : Nat) (hab : a + b ≤ n) (x : Fin n → EReal) : Fin b → EReal := fun k => x ⟨a + k.val, by omega⟩

/-- The matrix whose row `p` is `f` of row `p` of `X`. -/
def rows1 {A C D : Nat} (f : (Fin C → EReal) → Fin D → EReal) (X : Mat A C) : Mat A D :=
  fun j => f (row X ⟨(j 0).val, idx2_lt0 j⟩) ⟨(j 1).val, idx2_lt1 j⟩
/-- The matrix whose row `p` is `f` of the rows `p` of `X` and `Y`. -/
def rows2 {A C₁ C₂ D : Nat} (f : (Fin C₁ → EReal) → (Fin C₂ → EReal) → Fin D → EReal) (X : Mat A C₁) (Y : Mat A C₂) :
    Mat A D :=
  fun j => f (row X ⟨(j 0).val, idx2_lt0 j⟩) (row Y ⟨(j 0).val, idx2_lt0 j⟩) ⟨(j 1).val, idx2_lt1 j⟩
/-- The matrix whose row `p` is `f` of the rows `p` of `X`, `Y` and `Z`. -/
def rows3 {A C₁ C₂ C₃ D : Nat} (f : (Fin C₁ → EReal) → (Fin C₂ → EReal) → (Fin C₃ → EReal) → Fin D → EReal)
    (X : Mat A C₁) (Y : Mat A C₂) (Z : Mat A C₃) : Mat A D :=
  fun j => f (row X ⟨(j 0).val, idx2_lt0 j⟩) (row Y ⟨(j 0).val, idx2_lt0 j⟩) (row Z ⟨(j 0).val, idx2_lt0 j⟩)
    ⟨(j 1).val, idx2_lt1 j⟩

theorem rows1_apply {A C D : Nat} (f : (Fin C → EReal) → Fin D → EReal) (X : Mat A C) (p : Fin A) (h : Fin D) :
    rows1 f X (ix2 p h) = f (row X p) h := rfl
theorem rows2_apply {A C₁ C₂ D : Nat} (f : (Fin C₁ → EReal) → (Fin C₂ → EReal) → Fin D → EReal) (X : Mat A C₁)
    (Y : Mat A C₂) (p : Fin A) (h : Fin D) : rows2 f X Y (ix2 p h) = f (row X p) (row Y p) h := rfl
theorem rows3_apply {A C₁ C₂ C₃ D : Nat} (f : (Fin C₁ → EReal) → (Fin C₂ → EReal) → (Fin C₃ → EReal) → Fin D → EReal)
    (X : Mat A C₁) (Y : Mat A C₂) (Z : Mat A C₃) (p : Fin A) (h : Fin D) :
    rows3 f X Y Z (ix2 p h) = f (row X p) (row Y p) (row Z p) h := rfl

/-- Two matrices are equal when their entries at every `(p, h)` are. -/
theorem mat_ext {A B : Nat} {X Y : Mat A B} (h : ∀ (p : Fin A) (q : Fin B), X (ix2 p q) = Y (ix2 p q)) : X = Y :=
  funext fun j => by rw [eq_ix2 j]; exact h _ _

/-- Row `p` of a row-wise matrix is the function of row `p`. -/
theorem row_rows1 {A C D : Nat} (f : (Fin C → EReal) → Fin D → EReal) (X : Mat A C) (p : Fin A) :
    row (rows1 f X) p = f (row X p) := rfl
theorem row_rows2 {A C₁ C₂ D : Nat} (f : (Fin C₁ → EReal) → (Fin C₂ → EReal) → Fin D → EReal) (X : Mat A C₁)
    (Y : Mat A C₂) (p : Fin A) : row (rows2 f X Y) p = f (row X p) (row Y p) := rfl
theorem row_rows3 {A C₁ C₂ C₃ D : Nat} (f : (Fin C₁ → EReal) → (Fin C₂ → EReal) → (Fin C₃ → EReal) → Fin D → EReal)
    (X : Mat A C₁) (Y : Mat A C₂) (Z : Mat A C₃) (p : Fin A) :
    row (rows3 f X Y Z) p = f (row X p) (row Y p) (row Z p) := rfl

/-- The matrix whose row `p` is `f` of the rows `p` of five matrices. -/
def rows5 {A C₁ C₂ C₃ C₄ C₅ D : Nat}
    (f : (Fin C₁ → EReal) → (Fin C₂ → EReal) → (Fin C₃ → EReal) → (Fin C₄ → EReal) → (Fin C₅ → EReal) → Fin D → EReal)
    (X₁ : Mat A C₁) (X₂ : Mat A C₂) (X₃ : Mat A C₃) (X₄ : Mat A C₄) (X₅ : Mat A C₅) : Mat A D :=
  fun j => f (row X₁ ⟨(j 0).val, idx2_lt0 j⟩) (row X₂ ⟨(j 0).val, idx2_lt0 j⟩) (row X₃ ⟨(j 0).val, idx2_lt0 j⟩)
    (row X₄ ⟨(j 0).val, idx2_lt0 j⟩) (row X₅ ⟨(j 0).val, idx2_lt0 j⟩) ⟨(j 1).val, idx2_lt1 j⟩

/-- The matrix whose row `e` is row `σ e` of `X`. -/
def selRows {N R D : Nat} (σ : Fin R → Fin N) (X : Mat N D) : Mat R D :=
  fun j => X (ix2 (σ ⟨(j 0).val, idx2_lt0 j⟩) (⟨(j 1).val, idx2_lt1 j⟩ : Fin D))

theorem row_selRows {N R D : Nat} (σ : Fin R → Fin N) (X : Mat N D) (e : Fin R) : row (selRows σ X) e = row X (σ e) := rfl

/-! ## Cutting a row that was put together -/

theorem hi_cat2_left {a b n : Nat} (hab : 0 + a ≤ n) (x : Fin a → EReal) (y : Fin b → EReal) :
    hi 0 a hab (cat2 (n := n) x y) = x := by
  funext k
  unfold hi cat2
  have hk : (0 + k.val) < a := by have := k.isLt; omega
  simp only [dif_pos hk]
  exact congrArg x (Fin.ext (by simp))

theorem hi_cat2_right {a b n : Nat} (hab : a + b ≤ n) (x : Fin a → EReal) (y : Fin b → EReal) :
    hi a b hab (cat2 (n := n) x y) = y := by
  funext k
  unfold hi cat2
  have hk : ¬ (a + k.val) < a := by omega
  have hk2 : (a + k.val) - a < b := by have := k.isLt; omega
  simp only [dif_neg hk, dif_pos hk2]
  exact congrArg y (Fin.ext (by simp))

end Idealize.ShloMosaic.RowOps

end
-- ==== Proof.KIValue0.lean ====
/-
  What launch 0 leaves in its output array, at the extended reals: the 250 row blocks of 3200 rows tile the 800000 rows,
  block `t` is written back once, and it holds the body's payload of the 3200 rows of the input matrix from row `3200·t` on
  and of the six parameter arrays, each of which is fetched whole. So if the payload acts row by row (`rows1 g` of its
  first operand), the array ends at `rows1 g` of the whole input matrix.
-/
import proofs.«419926_j60730837565915_1_alg».proof.Proof.KIRegion0
import proofs.«419926_j60730837565915_1_alg».proof.Proof.LibRowOps
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.RowOps Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the input matrix and the output move one row block per point; every
    parameter array stays at its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt_N0 (t : Fin cfg0.N) : t.val < 250 := by have h := t.isLt; have e : cfg0.N = 250 := N_0; omega

/-- The input matrix's block at point `t` is rows `3200·t …` of the matrix. -/
theorem blk0_0_read (c : Dev nD) (t : Fin cfg0.N) (y : S3200x288.Idx) :
    (iblk0 V c 0 t : S3200x288.Idx → EReal) y
      = (V c main_v6 : S800000x288.Idx → EReal) (ix2 ⟨t.val * 3200 + (y 0).val, by have := lt_N0 t; have h3 : (y 0).val < 3200 := (y 0).isLt; omega⟩ ⟨(y 1).val, (y 1).isLt⟩) := by
  obtain ⟨e0, e1, -⟩ := idx_facts0 t
  show (V c main_v6 : S800000x288.Idx → EReal) (((cfg0.win 0).blk t).view.emb y) = _
  refine congrArg _ (funext fun a => Fin.ext ?_)
  match a with
  | ⟨0, _⟩ => show win0_0.index t (0 : Fin 2) * 3200 + 1 * (y 0).val = t.val * 3200 + (y 0).val; omega
  | ⟨1, _⟩ => show win0_0.index t (1 : Fin 2) * 288 + 1 * (y 1).val = (y 1).val; omega

/-- Parameter window 1 is its whole array at every point. -/
theorem blk0_1_whole (c : Dev nD) (t : Fin cfg0.N) :
    (iblk0 V c 1 t : S288x300.Idx → EReal) = (V c main_arg4 : S288x300.Idx → EReal) := by
  have h := idx_facts0 t
  funext y
  show (V c main_arg4 : S288x300.Idx → EReal) (((cfg0.win 1).blk t).view.emb y) = _
  refine congrArg _ (funext fun a => Fin.ext ?_)
  match a with
  | ⟨0, _⟩ => show win0_1.index t (0 : Fin 2) * 288 + 1 * (y 0).val = (y 0).val; omega
  | ⟨1, _⟩ => show win0_1.index t (1 : Fin 2) * 300 + 1 * (y 1).val = (y 1).val; omega

/-- Parameter window 2 is its whole array at every point. -/
theorem blk0_2_whole (c : Dev nD) (t : Fin cfg0.N) :
    (iblk0 V c 2 t : S1x300.Idx → EReal) = (V c main_v7 : S1x300.Idx → EReal) := by
  have h := idx_facts0 t
  funext y
  show (V c main_v7 : S1x300.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 300 + 1 * (y 1).val = (y 1).val; omega

/-- Parameter window 3 is its whole array at every point. -/
theorem blk0_3_whole (c : Dev nD) (t : Fin cfg0.N) :
    (iblk0 V c 3 t : S300x300.Idx → EReal) = (V c main_arg6 : S300x300.Idx → EReal) := by
  have h := idx_facts0 t
  funext y
  show (V c main_arg6 : S300x300.Idx → EReal) (((cfg0.win 3).blk t).view.emb y) = _
  refine congrArg _ (funext fun a => Fin.ext ?_)
  match a with
  | ⟨0, _⟩ => show win0_3.index t (0 : Fin 2) * 300 + 1 * (y 0).val = (y 0).val; omega
  | ⟨1, _⟩ => show win0_3.index t (1 : Fin 2) * 300 + 1 * (y 1).val = (y 1).val; omega

/-- Parameter window 4 is its whole array at every point. -/
theorem blk0_4_whole (c : Dev nD) (t : Fin cfg0.N) :
    (iblk0 V c 4 t : S1x300.Idx → EReal) = (V c main_v8 : S1x300.Idx → EReal) := by
  have h := idx_facts0 t
  funext y
  show (V c main_v8 : S1x300.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 300 + 1 * (y 1).val = (y 1).val; omega

/-- Parameter window 5 is its whole array at every point. -/
theorem blk0_5_whole (c : Dev nD) (t : Fin cfg0.N) :
    (iblk0 V c 5 t : S300x128.Idx → EReal) = (V c main_arg8 : S300x128.Idx → EReal) := by
  have h := idx_facts0 t
  funext y
  show (V c main_arg8 : S300x128.Idx → EReal) (((cfg0.win 5).blk t).view.emb y) = _
  refine congrArg _ (funext fun a => Fin.ext ?_)
  match a with
  | ⟨0, _⟩ => show win0_5.index t (0 : Fin 2) * 300 + 1 * (y 0).val = (y 0).val; omega
  | ⟨1, _⟩ => show win0_5.index t (1 : Fin 2) * 128 + 1 * (y 1).val = (y 1).val; omega

/-- Parameter window 6 is its whole array at every point. -/
theorem blk0_6_whole (c : Dev nD) (t : Fin cfg0.N) :
    (iblk0 V c 6 t : S1x128.Idx → EReal) = (V c main_v9 : S1x128.Idx → EReal) := by
  have h := idx_facts0 t
  funext y
  show (V c main_v9 : S1x128.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- A function of a row and a column index, at equal rows and equal column numbers. -/
theorem app_row_congr0 {C D : Nat} (g : (Fin C → EReal) → Fin D → EReal) {x y : Fin C → EReal} {a b : Fin D}
    (hx : x = y) (hab : a.val = b.val) : g x a = g y b := by
  subst hx; rw [Fin.ext hab]

/-- WHAT POINT `t` WRITES BACK is block `t` of the row-by-row image of the whole input matrix. -/
theorem flushed0_eq (c : Dev nD) (g : (Fin 288 → EReal) → Fin 128 → EReal)
    (hpay : ∀ X : FVec Ideal S3200x288 .f32, k0_pay1 (F := Ideal) X (V c main_arg4) (V c main_v7) (V c main_arg6) (V c main_v8) (V c main_arg8) (V c main_v9) = rows1 g X)
    (t : Fin cfg0.N) :
    (dat0 V c).flushed 7 t = ((cfg0.win 7).blk t).view.read (Elt Ideal) (rows1 g (V c main_v6) : S800000x128.Idx → EReal) := by
  show (cfg0.win 7).cut (grid0.coords t) ((dat0 V c).after 7 t) = _
  rw [after0_7]
  unfold out0_7
  rw [View.canon_unit_zero hz0]
  simp only [View.ld_unit_zero (S := S3200x288) hz0, View.ld_unit_zero (S := S288x300) hz0, View.ld_unit_zero (S := S1x300) hz0, View.ld_unit_zero (S := S300x300) hz0, View.ld_unit_zero (S := S300x128) hz0, View.ld_unit_zero (S := S1x128) hz0]
  rw [blk0_1_whole V c t, blk0_2_whole V c t, blk0_3_whole V c t, blk0_4_whole V c t, blk0_5_whole V c t, blk0_6_whole V c t, hpay]
  obtain ⟨-, -, -, -, -, -, -, -, -, -, -, -, -, -, e70, e71⟩ := idx_facts0 t
  funext j
  show rows1 g (iblk0 V c 0 t) j = rows1 g (V c main_v6) (((cfg0.win 7).blk t).view.emb j)
  have q0 : (((cfg0.win 7).blk t).view.emb j 0).val = t.val * 3200 + (j 0).val := by
    show win0_7.index t (0 : Fin 2) * 3200 + 1 * (j 0).val = _; omega
  have q1 : (((cfg0.win 7).blk t).view.emb j 1).val = (j 1).val := by
    show win0_7.index t (1 : Fin 2) * 128 + 1 * (j 1).val = _; omega
  unfold rows1
  refine app_row_congr0 g (funext fun k => ?_) q1.symm
  unfold row
  rw [blk0_0_read V c t]
  refine congrArg _ (funext fun a => Fin.ext ?_)
  match a with
  | ⟨0, _⟩ => exact q0.symm
  | ⟨1, _⟩ => rfl

/-- An index of the output array lies in point `t`'s block iff its row is among the block's rows. -/
theorem mem_blk0 (t : Fin cfg0.N) (i : S800000x128.Idx) :
    i ∈ ((cfg0.win 7).blk t).view.set ↔ ∀ a : Fin 2, win0_7.index t a * S3200x128.size a ≤ (i a).val ∧ (i a).val < win0_7.index t a * S3200x128.size a + S3200x128.size a := by
  show i ∈ ((View.whole main_v10).slice (win0_7.rect t)).set ↔ _
  rw [View.set_slice_whole, Rect.mem_set_unit]
  exact Iff.rfl

/-- Every row of the output array belongs to exactly the block of its quotient by 3200. -/
theorem cover0 (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have e : cfg0.N = 250 := N_0
  let t : Fin cfg0.N := ⟨(i 0).val / 3200, by omega⟩
  obtain ⟨-, -, -, -, -, -, -, -, -, -, -, -, -, -, e70, e71⟩ := idx_facts0 t
  have ht : t.val = (i 0).val / 3200 := rfl
  refine ⟨t, flush0_7 t, ?_⟩
  rw [mem_blk0]
  intro a
  match a with
  | ⟨0, _⟩ => show win0_7.index t (0 : Fin 2) * 3200 ≤ (i 0).val ∧ (i 0).val < win0_7.index t (0 : Fin 2) * 3200 + 3200; omega
  | ⟨1, _⟩ => show win0_7.index t (1 : Fin 2) * 128 ≤ (i 1).val ∧ (i 1).val < win0_7.index t (1 : Fin 2) * 128 + 128; omega

/-- THE OUTPUT ARRAY after the launch: the row-by-row image of the whole input matrix. -/
theorem arr0 (c : Dev nD) (g : (Fin 288 → EReal) → Fin 128 → EReal)
    (hpay : ∀ X : FVec Ideal S3200x288 .f32, k0_pay1 (F := Ideal) X (V c main_arg4) (V c main_v7) (V c main_arg6) (V c main_v8) (V c main_arg8) (V c main_v9) = rows1 g X) :
    (dat0 V c).arrAt 7 cfg0.N = (rows1 g (V c main_v6) : S800000x128.Idx → EReal) :=
  (dat0 V c).arrAt_eq_of_cover 7 _ (fun t _ => flushed0_eq V c g hpay t) (cover0)

end Cert.KernelIdeal.Hand

end
-- ==== Proof.KIValue1.lean ====
/-
  What launch 1 leaves in its output array, at the extended reals: the 25 row blocks of 2000 rows tile the 50000 rows,
  block `t` is written back once, and it holds the body's payload of the 2000 rows of the input matrix from row `2000·t` on
  and of the six parameter arrays, each of which is fetched whole. So if the payload acts row by row (`rows1 g` of its
  first operand), the array ends at `rows1 g` of the whole input matrix.
-/
import proofs.«419926_j60730837565915_1_alg».proof.Proof.KIRegion1
import proofs.«419926_j60730837565915_1_alg».proof.Proof.LibRowOps
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.RowOps Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the input matrix and the output move one row block per point; every
    parameter array stays at its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt_N1 (t : Fin cfg1.N) : t.val < 25 := by have h := t.isLt; have e : cfg1.N = 25 := N_1; omega

/-- The input matrix's block at point `t` is rows `2000·t …` of the matrix. -/
theorem blk1_0_read (c : Dev nD) (t : Fin cfg1.N) (y : S2000x256.Idx) :
    (iblk1 V c 0 t : S2000x256.Idx → EReal) y
      = (V c main_v14 : S50000x256.Idx → EReal) (ix2 ⟨t.val * 2000 + (y 0).val, by have := lt_N1 t; have h3 : (y 0).val < 2000 := (y 0).isLt; omega⟩ ⟨(y 1).val, (y 1).isLt⟩) := by
  obtain ⟨e0, e1, -⟩ := idx_facts1 t
  show (V c main_v14 : S50000x256.Idx → EReal) (((cfg1.win 0).blk t).view.emb y) = _
  refine congrArg _ (funext fun a => Fin.ext ?_)
  match a with
  | ⟨0, _⟩ => show win1_0.index t (0 : Fin 2) * 2000 + 1 * (y 0).val = t.val * 2000 + (y 0).val; omega
  | ⟨1, _⟩ => show win1_0.index t (1 : Fin 2) * 256 + 1 * (y 1).val = (y 1).val; omega

/-- Parameter window 1 is its whole array at every point. -/
theorem blk1_1_whole (c : Dev nD) (t : Fin cfg1.N) :
    (iblk1 V c 1 t : S256x300.Idx → EReal) = (V c main_arg10 : S256x300.Idx → EReal) := by
  have h := idx_facts1 t
  funext y
  show (V c main_arg10 : S256x300.Idx → EReal) (((cfg1.win 1).blk t).view.emb y) = _
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 300 + 1 * (y 1).val = (y 1).val; omega

/-- Parameter window 2 is its whole array at every point. -/
theorem blk1_2_whole (c : Dev nD) (t : Fin cfg1.N) :
    (iblk1 V c 2 t : S1x300.Idx → EReal) = (V c main_v15 : S1x300.Idx → EReal) := by
  have h := idx_facts1 t
  funext y
  show (V c main_v15 : S1x300.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 300 + 1 * (y 1).val = (y 1).val; omega

/-- Parameter window 3 is its whole array at every point. -/
theorem blk1_3_whole (c : Dev nD) (t : Fin cfg1.N) :
    (iblk1 V c 3 t : S300x300.Idx → EReal) = (V c main_arg12 : S300x300.Idx → EReal) := by
  have h := idx_facts1 t
  funext y
  show (V c main_arg12 : S300x300.Idx → EReal) (((cfg1.win 3).blk t).view.emb y) = _
  refine congrArg _ (funext fun a => Fin.ext ?_)
  match a with
  | ⟨0, _⟩ => show win1_3.index t (0 : Fin 2) * 300 + 1 * (y 0).val = (y 0).val; omega
  | ⟨1, _⟩ => show win1_3.index t (1 : Fin 2) * 300 + 1 * (y 1).val = (y 1).val; omega

/-- Parameter window 4 is its whole array at every point. -/
theorem blk1_4_whole (c : Dev nD) (t : Fin cfg1.N) :
    (iblk1 V c 4 t : S1x300.Idx → EReal) = (V c main_v16 : S1x300.Idx → EReal) := by
  have h := idx_facts1 t
  funext y
  show (V c main_v16 : S1x300.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 300 + 1 * (y 1).val = (y 1).val; omega

/-- Parameter window 5 is its whole array at every point. -/
theorem blk1_5_whole (c : Dev nD) (t : Fin cfg1.N) :
    (iblk1 V c 5 t : S300x128.Idx → EReal) = (V c main_arg14 : S300x128.Idx → EReal) := by
  have h := idx_facts1 t
  funext y
  show (V c main_arg14 : S300x128.Idx → EReal) (((cfg1.win 5).blk t).view.emb y) = _
  refine congrArg _ (funext fun a => Fin.ext ?_)
  match a with
  | ⟨0, _⟩ => show win1_5.index t (0 : Fin 2) * 300 + 1 * (y 0).val = (y 0).val; omega
  | ⟨1, _⟩ => show win1_5.index t (1 : Fin 2) * 128 + 1 * (y 1).val = (y 1).val; omega

/-- Parameter window 6 is its whole array at every point. -/
theorem blk1_6_whole (c : Dev nD) (t : Fin cfg1.N) :
    (iblk1 V c 6 t : S1x128.Idx → EReal) = (V c main_v17 : S1x128.Idx → EReal) := by
  have h := idx_facts1 t
  funext y
  show (V c main_v17 : S1x128.Idx → EReal) (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- A function of a row and a column index, at equal rows and equal column numbers. -/
theorem app_row_congr1 {C D : Nat} (g : (Fin C → EReal) → Fin D → EReal) {x y : Fin C → EReal} {a b : Fin D}
    (hx : x = y) (hab : a.val = b.val) : g x a = g y b := by
  subst hx; rw [Fin.ext hab]

/-- WHAT POINT `t` WRITES BACK is block `t` of the row-by-row image of the whole input matrix. -/
theorem flushed1_eq (c : Dev nD) (g : (Fin 256 → EReal) → Fin 128 → EReal)
    (hpay : ∀ X : FVec Ideal S2000x256 .f32, k1_pay1 (F := Ideal) X (V c main_arg10) (V c main_v15) (V c main_arg12) (V c main_v16) (V c main_arg14) (V c main_v17) = rows1 g X)
    (t : Fin cfg1.N) :
    (dat1 V c).flushed 7 t = ((cfg1.win 7).blk t).view.read (Elt Ideal) (rows1 g (V c main_v14) : S50000x128.Idx → EReal) := by
  show (cfg1.win 7).cut (grid1.coords t) ((dat1 V c).after 7 t) = _
  rw [after1_7]
  unfold out1_7
  rw [View.canon_unit_zero hz1]
  simp only [View.ld_unit_zero (S := S2000x256) hz1, View.ld_unit_zero (S := S256x300) hz1, View.ld_unit_zero (S := S1x300) hz1, View.ld_unit_zero (S := S300x300) hz1, View.ld_unit_zero (S := S300x128) hz1, View.ld_unit_zero (S := S1x128) hz1]
  rw [blk1_1_whole V c t, blk1_2_whole V c t, blk1_3_whole V c t, blk1_4_whole V c t, blk1_5_whole V c t, blk1_6_whole V c t, hpay]
  obtain ⟨-, -, -, -, -, -, -, -, -, -, -, -, -, -, e70, e71⟩ := idx_facts1 t
  funext j
  show rows1 g (iblk1 V c 0 t) j = rows1 g (V c main_v14) (((cfg1.win 7).blk t).view.emb j)
  have q0 : (((cfg1.win 7).blk t).view.emb j 0).val = t.val * 2000 + (j 0).val := by
    show win1_7.index t (0 : Fin 2) * 2000 + 1 * (j 0).val = _; omega
  have q1 : (((cfg1.win 7).blk t).view.emb j 1).val = (j 1).val := by
    show win1_7.index t (1 : Fin 2) * 128 + 1 * (j 1).val = _; omega
  unfold rows1
  refine app_row_congr1 g (funext fun k => ?_) q1.symm
  unfold row
  rw [blk1_0_read V c t]
  refine congrArg _ (funext fun a => Fin.ext ?_)
  match a with
  | ⟨0, _⟩ => exact q0.symm
  | ⟨1, _⟩ => rfl

/-- An index of the output array lies in point `t`'s block iff its row is among the block's rows. -/
theorem mem_blk1 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v18).slice (win1_7.rect t)).set ↔ _
  rw [View.set_slice_whole, Rect.mem_set_unit]
  exact Iff.rfl

/-- Every row of the output array belongs to exactly the block of its quotient by 2000. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have e : cfg1.N = 25 := N_1
  let t : Fin cfg1.N := ⟨(i 0).val / 2000, by omega⟩
  obtain ⟨-, -, -, -, -, -, -, -, -, -, -, -, -, -, e70, e71⟩ := idx_facts1 t
  have ht : t.val = (i 0).val / 2000 := rfl
  refine ⟨t, flush1_7 t, ?_⟩
  rw [mem_blk1]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- THE OUTPUT ARRAY after the launch: the row-by-row image of the whole input matrix. -/
theorem arr1 (c : Dev nD) (g : (Fin 256 → EReal) → Fin 128 → EReal)
    (hpay : ∀ X : FVec Ideal S2000x256 .f32, k1_pay1 (F := Ideal) X (V c main_arg10) (V c main_v15) (V c main_arg12) (V c main_v16) (V c main_arg14) (V c main_v17) = rows1 g X) :
    (dat1 V c).arrAt 7 cfg1.N = (rows1 g (V c main_v14) : S50000x128.Idx → EReal) :=
  (dat1 V c).arrAt_eq_of_cover 7 _ (fun t _ => flushed1_eq V c g hpay t) (cover1)

end Cert.KernelIdeal.Hand

end
-- ==== Proof.LibRowDense.lean ====
/-
  A LAYER OF A PERCEPTRON, as the kernel and as the host spell it, is row by row the affine map `dense W b` (with or
  without the positive part `relu`): the matrix product into the zero accumulator is the sum over the contracted axis, the
  bias reaches every row by a cast and a broadcast (kernel) or by two `broadcast_in_dim` (host), and the maximum with a
  broadcast zero is the positive part. Also: a layer whose input row ends in zeros only sees the first rows of its matrix.
-/
import proofs.«419926_j60730837565915_1_alg».proof.Proof.LibRowOps

noncomputable section

open scoped BigOperators

namespace Idealize.ShloMosaic.RowOps

open Idealize.ShloMosaic Idealize.ShloMosaic.ValueIdx

/-! ## The printed operations in row form -/

/-- A dimension record says "rows times columns": one contracted axis, the left operand's columns against the right
    operand's rows, no batch axes. At a literal record every part is `rfl`. -/
def IsRowsCols {A K B : Nat} (d : DotDims (⟨2, ![A, K]⟩ : Shape) (⟨2, ![K, B]⟩ : Shape) (⟨2, ![A, B]⟩ : Shape)) : Prop :=
  ∃ hr : d.contr.rank = 1, d.contr.size ⟨0, by omega⟩ = K ∧ d.lhsBatch = [] ∧ d.rhsBatch = [] ∧ d.lhsNonContracting = [0]
    ∧ d.rhsNonContracting = [1] ∧ d.lhsContracting = [1] ∧ d.rhsContracting = [0]

/-- THE KERNEL'S LAYER WITH ITS POSITIVE PART: a product into the zero accumulator, plus the bias cast to one row and
    broadcast over the rows, then the maximum with zero, is row by row `relu ∘ dense W b`. -/
theorem kdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    maximumf (addf (matmul d none X W (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense W b x)) X := by
  obtain ⟨hr, hs, hbl, hbr, hnl, hnr, hcl, hcr⟩ := hd
  refine mat_ext fun p h => ?_
  rw [maximumf_apply, addf_apply, broadcast_apply, broadcastTo_1b_ab_apply, shapeCast_a_1a_apply, rows1_apply]
  show max (FloatOps.matmul d none X W (constant (⟨2, ![A, B]⟩ : Shape) .f32 0x00000000#32) (ix2 p h) + b (ix1 h))
      (Ideal.ofBits .f32 0x00000000#32) = _
  rw [Contract.matmul_zero_rows_cols d none hr hs hbl hbr hnl hnr hcl hcr, Ideal.ofBits_zero_f32]
  rfl

/-- The kernel's layer without the positive part. -/
theorem kdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    addf (matmul d none X W (constant (F := Ideal) (⟨2, ![A, B]⟩ : Shape) .f32 0x00000000#32))
        (broadcastTo (⟨2, ![A, B]⟩ : Shape) (shapeCast (⟨2, ![1, B]⟩ : Shape) b hc) hb)
    = rows1 (fun x => dense W b x) X := by
  obtain ⟨hr, hs, hbl, hbr, hnl, hnr, hcl, hcr⟩ := hd
  refine mat_ext fun p h => ?_
  rw [addf_apply, broadcastTo_1b_ab_apply, shapeCast_a_1a_apply, rows1_apply]
  show FloatOps.matmul d none X W (constant (⟨2, ![A, B]⟩ : Shape) .f32 0x00000000#32) (ix2 p h) + b (ix1 h) = _
  rw [Contract.matmul_zero_rows_cols d none hr hs hbl hbr hnl hnr hcl hcr]
  rfl

/-- THE HOST'S LAYER WITH ITS POSITIVE PART: `dot_general`, plus the bias broadcast in two steps, then the maximum with a
    broadcast zero, is row by row `relu ∘ dense W b`. -/
theorem hdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1])
    (h0 : (⟨0, ![]⟩ : Shape).BroadcastsInDim (⟨2, ![A, B]⟩ : Shape) ![]) :
    maximumf (addf (Host.dotGeneral d none X W)
        (broadcastInDim (⟨2, ![A, B]⟩ : Shape) ![0, 1] h2 (broadcastInDim (⟨2, ![1, B]⟩ : Shape) ![1] h1 b)))
      (broadcastInDim (⟨2, ![A, B]⟩ : Shape) ![] h0 (constant (F := Ideal) (⟨0, ![]⟩ : Shape) .f32 0x00000000#32))
    = rows1 (fun x => relu (dense W b x)) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  have e0 : broadcastInDim (⟨2, ![A, B]⟩ : Shape) ![] h0 (constant (F := Ideal) (⟨0, ![]⟩ : Shape) .f32 0x00000000#32)
      (ix2 p h) = 0 := by
    rw [broadcastInDim_apply ![] h0 _ (ix2 p h) ix0 fun a => a.elim0, constant_apply, Ideal.ofBits_zero_f32]
  rw [maximumf_apply, addf_apply, e2, e1, e0, rows1_apply]
  show max (FloatOps.dotGeneral d none .single X W (ix2 p h) + b (ix1 h)) 0 = _
  rw [Contract.dotGeneral_rows_cols d none .single hr hs hbl hbr hnl hnr hcl hcr]
  rfl

/-- The host's layer without the positive part. -/
theorem hdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1]) :
    addf (Host.dotGeneral d none X W)
        (broadcastInDim (⟨2, ![A, B]⟩ : Shape) ![0, 1] h2 (broadcastInDim (⟨2, ![1, B]⟩ : Shape) ![1] h1 b))
    = rows1 (fun x => dense W b x) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  rw [addf_apply, e2, e1, rows1_apply]
  show FloatOps.dotGeneral d none .single X W (ix2 p h) + b (ix1 h) = _
  rw [Contract.dotGeneral_rows_cols d none .single hr hs hbl hbr hnl hnr hcl hcr]
  rfl

/-- A layer fed three rows side by side of which the last two are zero is the layer of the first row alone with the
    weight matrix cut to its first rows: the other terms of every sum are `0 · w = 0`, which holds for every extended
    real `w`. -/
theorem dense_cat3_zero {a b c n B : Nat} (hn : a + (b + c) = n) (W : Mat n B) (W₀ : Mat a B) (bias : Arr B)
    (hW : ∀ (k : Fin a) (q : Fin B), W₀ (ix2 k q) = W (ix2 (⟨k.val, by omega⟩ : Fin n) q)) (x : Fin a → EReal) :
    dense W bias (cat3 (n := n) x (fun _ : Fin b => (0 : EReal)) (fun _ : Fin c => (0 : EReal))) = dense W₀ bias x := by
  subst hn
  funext h
  unfold dense
  congr 1
  rw [Fin.sum_univ_add]
  have hz : ∑ i : Fin (b + c), cat3 (n := a + (b + c)) x (fun _ : Fin b => (0 : EReal)) (fun _ : Fin c => (0 : EReal))
      (Fin.natAdd a i) * W (ix2 (Fin.natAdd a i) h) = 0 := by
    refine Finset.sum_eq_zero fun i _ => ?_
    have hc : cat3 (n := a + (b + c)) x (fun _ : Fin b => (0 : EReal)) (fun _ : Fin c => (0 : EReal)) (Fin.natAdd a i)
        = 0 := by
      unfold cat3 cat2
      have hk : ¬ (Fin.natAdd a i).val < a := by simp
      rw [dif_neg hk]
      split
      · split
        · rfl
        · split <;> rfl
      · rfl
    rw [hc, zero_mul]
  rw [hz, add_zero]
  refine Finset.sum_congr rfl fun k _ => ?_
  have hc : cat3 (n := a + (b + c)) x (fun _ : Fin b => (0 : EReal)) (fun _ : Fin c => (0 : EReal)) (Fin.castAdd (b + c) k)
      = x k := by
    unfold cat3 cat2
    have hk : (Fin.castAdd (b + c) k).val < a := by simp
    rw [dif_pos hk]
    rfl
  rw [hc, hW]
  rfl

end Idealize.ShloMosaic.RowOps

end
-- ==== Proof.GnnSpec.lean ====
/-
  The three-layer perceptron the graph network applies to every row of a matrix: two hidden layers of width 300 with
  the positive part after each, and a last affine layer of width 128. On a row `x` of any length `K`:
  `x ↦ (relu (relu (x·W₁ + b₁)·W₂ + b₂))·W₃ + b₃`, every sum and product taken in the extended reals.
-/
import proofs.«419926_j60730837565915_1_alg».proof.Proof.LibRowOps

noncomputable section

namespace Idealize.ShloMosaic.RowOps

/-- The perceptron on one row. -/
def mlp3 {K : Nat} (W1 : Mat K 300) (b1 : Arr 300) (W2 : Mat 300 300) (b2 : Arr 300) (W3 : Mat 300 128) (b3 : Arr 128)
    (x : Fin K → EReal) : Fin 128 → EReal :=
  dense W3 b3 (relu (dense W2 b2 (relu (dense W1 b1 x))))

end Idealize.ShloMosaic.RowOps

end
-- ==== Proof.PayRows.lean ====
/-
  THE KERNEL'S PAYLOADS IN ROW FORM. Each of the two perceptron kernels computes, from a block of rows and the three
  weight matrices and bias rows it has loaded, one array: three layers, each a matrix product into the zero accumulator
  plus the bias row broadcast over the rows, the first two followed by the maximum with zero, with a narrowing to a
  shorter format before every product. At the extended reals a narrowing changes nothing and a cast of an array to its
  own shape is the identity, so each layer is row by row the affine map `dense W b` (with the positive part `relu` after
  the first two), and the whole payload is row by row the perceptron `mlp3`. The bias rows are the rank-1 bias arrays
  cast to one row, which is how the host hands them to the kernel.
-/
import proofs.«419926_j60730837565915_1_alg».proof.Proof.Gen.KernelIdeal.Skeleton
import proofs.«419926_j60730837565915_1_alg».proof.Proof.LibRowDense
import proofs.«419926_j60730837565915_1_alg».proof.Proof.GnnSpec

noncomputable section

namespace Cert.KernelIdeal.Hand

open Cert.KernelIdeal Cert.KernelIdeal.Gen Idealize.ShloMosaic Idealize.ShloMosaic.RowOps

/-- The kernel's layer with its positive part, as the kernel spells it: both operands narrowed before the product, and
    the bias row cast once more to its own shape before the broadcast. Row by row it is `relu ∘ dense W b`: the
    narrowing is the identity on extended reals and so is the cast. -/
theorem kdense_relu_narrowed {A K B : Nat}
    (d : DotDims (⟨2, ![A, K]⟩ : Shape) (⟨2, ![K, B]⟩ : Shape) (⟨2, ![A, B]⟩ : Shape)) (hd : IsRowsCols d)
    (X : Mat A K) (W : Mat K B) (b : Arr B)
    (hc : (⟨1, ![B]⟩ : Shape).ShapeCasts ⟨2, ![1, B]⟩) (hs : (⟨2, ![1, B]⟩ : Shape).ShapeCasts ⟨2, ![1, B]⟩)
    (hb : (⟨2, ![1, B]⟩ : Shape).Broadcasts ⟨2, ![A, B]⟩) (h1 h2 : FTy.bits .bf16 < FTy.bits .f32) :
    maximumf (addf (matmul d none (truncf .bf16 X h1) (truncf .bf16 W h2)
          (constant (F := Ideal) (⟨2, ![A, B]⟩ : Shape) .f32 0x00000000#32))
        (broadcastTo (⟨2, ![A, B]⟩ : Shape)
          (shapeCast (⟨2, ![1, B]⟩ : Shape) (shapeCast (⟨2, ![1, B]⟩ : Shape) b hc) hs) hb))
      (broadcast (⟨2, ![A, B]⟩ : Shape) (Scalar.ofBits (F := Ideal) .f32 0x00000000#32))
    = rows1 (fun x => relu (dense W b x)) X := by
  rw [shapeCast_self]
  exact kdense_relu d hd X W b hc hb

/-- The kernel's last layer, as the kernel spells it: the same without the maximum. Row by row it is `dense W b`. -/
theorem kdense_narrowed {A K B : Nat}
    (d : DotDims (⟨2, ![A, K]⟩ : Shape) (⟨2, ![K, B]⟩ : Shape) (⟨2, ![A, B]⟩ : Shape)) (hd : IsRowsCols d)
    (X : Mat A K) (W : Mat K B) (b : Arr B)
    (hc : (⟨1, ![B]⟩ : Shape).ShapeCasts ⟨2, ![1, B]⟩) (hs : (⟨2, ![1, B]⟩ : Shape).ShapeCasts ⟨2, ![1, B]⟩)
    (hb : (⟨2, ![1, B]⟩ : Shape).Broadcasts ⟨2, ![A, B]⟩) (h1 h2 : FTy.bits .bf16 < FTy.bits .f32) :
    addf (matmul d none (truncf .bf16 X h1) (truncf .bf16 W h2)
          (constant (F := Ideal) (⟨2, ![A, B]⟩ : Shape) .f32 0x00000000#32))
        (broadcastTo (⟨2, ![A, B]⟩ : Shape)
          (shapeCast (⟨2, ![1, B]⟩ : Shape) (shapeCast (⟨2, ![1, B]⟩ : Shape) b hc) hs) hb)
    = rows1 (fun x => dense W b x) X := by
  rw [shapeCast_self]
  exact kdense d hd X W b hc hb

/-- THREE LAYERS AS THE KERNEL SPELLS THEM, on a block of `A` rows of length `K`: row by row the perceptron. Each layer
    is its row form; a row-wise map of a row-wise map is the row-wise map of the composite, entry by entry. -/
theorem mlp3_narrowed {A K : Nat}
    (d1 : DotDims (⟨2, ![A, K]⟩ : Shape) (⟨2, ![K, 300]⟩ : Shape) (⟨2, ![A, 300]⟩ : Shape)) (hd1 : IsRowsCols d1)
    (d2 : DotDims (⟨2, ![A, 300]⟩ : Shape) (⟨2, ![300, 300]⟩ : Shape) (⟨2, ![A, 300]⟩ : Shape)) (hd2 : IsRowsCols d2)
    (d3 : DotDims (⟨2, ![A, 300]⟩ : Shape) (⟨2, ![300, 128]⟩ : Shape) (⟨2, ![A, 128]⟩ : Shape)) (hd3 : IsRowsCols d3)
    (X : Mat A K) (W1 : Mat K 300) (b1 : Arr 300) (W2 : Mat 300 300) (b2 : Arr 300) (W3 : Mat 300 128) (b3 : Arr 128)
    (hX : (⟨2, ![A, K]⟩ : Shape).ShapeCasts ⟨2, ![A, K]⟩)
    (hc300 : (⟨1, ![300]⟩ : Shape).ShapeCasts ⟨2, ![1, 300]⟩) (hs300 : (⟨2, ![1, 300]⟩ : Shape).ShapeCasts ⟨2, ![1, 300]⟩)
    (hb300 : (⟨2, ![1, 300]⟩ : Shape).Broadcasts ⟨2, ![A, 300]⟩)
    (hc128 : (⟨1, ![128]⟩ : Shape).ShapeCasts ⟨2, ![1, 128]⟩) (hs128 : (⟨2, ![1, 128]⟩ : Shape).ShapeCasts ⟨2, ![1, 128]⟩)
    (hb128 : (⟨2, ![1, 128]⟩ : Shape).Broadcasts ⟨2, ![A, 128]⟩) (hlt : FTy.bits .bf16 < FTy.bits .f32) :
    addf (matmul d3 none
        (truncf .bf16
          (maximumf (addf (matmul d2 none
              (truncf .bf16
                (maximumf (addf (matmul d1 none (truncf .bf16 (shapeCast (⟨2, ![A, K]⟩ : Shape) X hX) hlt)
                      (truncf .bf16 W1 hlt) (constant (F := Ideal) (⟨2, ![A, 300]⟩ : Shape) .f32 0x00000000#32))
                    (broadcastTo (⟨2, ![A, 300]⟩ : Shape)
                      (shapeCast (⟨2, ![1, 300]⟩ : Shape) (shapeCast (⟨2, ![1, 300]⟩ : Shape) b1 hc300) hs300) hb300))
                  (broadcast (⟨2, ![A, 300]⟩ : Shape) (Scalar.ofBits (F := Ideal) .f32 0x00000000#32))) hlt)
              (truncf .bf16 W2 hlt) (constant (F := Ideal) (⟨2, ![A, 300]⟩ : Shape) .f32 0x00000000#32))
            (broadcastTo (⟨2, ![A, 300]⟩ : Shape)
              (shapeCast (⟨2, ![1, 300]⟩ : Shape) (shapeCast (⟨2, ![1, 300]⟩ : Shape) b2 hc300) hs300) hb300))
          (broadcast (⟨2, ![A, 300]⟩ : Shape) (Scalar.ofBits (F := Ideal) .f32 0x00000000#32))) hlt)
        (truncf .bf16 W3 hlt) (constant (F := Ideal) (⟨2, ![A, 128]⟩ : Shape) .f32 0x00000000#32))
      (broadcastTo (⟨2, ![A, 128]⟩ : Shape)
        (shapeCast (⟨2, ![1, 128]⟩ : Shape) (shapeCast (⟨2, ![1, 128]⟩ : Shape) b3 hc128) hs128) hb128)
    = rows1 (mlp3 W1 b1 W2 b2 W3 b3) X := by
  rw [shapeCast_self X hX, kdense_relu_narrowed d1 hd1, kdense_relu_narrowed d2 hd2, kdense_narrowed d3 hd3]
  refine mat_ext fun p h => ?_
  rw [rows1_apply, rows1_apply, row_rows1, row_rows1]
  rfl

/-- The payload of the first kernel (blocks of 3200 rows of length 288) is row by row the perceptron. -/
theorem pay0_rows (X : FVec Ideal S3200x288 .f32) (W1 : FVec Ideal S288x300 .f32) (b1 : FVec Ideal S300 .f32)
    (W2 : FVec Ideal S300x300 .f32) (b2 : FVec Ideal S300 .f32) (W3 : FVec Ideal S300x128 .f32)
    (b3 : FVec Ideal S128 .f32) :
    k0_pay1 (F := Ideal) X W1 (shapeCast S1x300 b1 shapeCasts_S300_S1x300) W2
        (shapeCast S1x300 b2 shapeCasts_S300_S1x300) W3 (shapeCast S1x128 b3 shapeCasts_S128_S1x128)
      = rows1 (mlp3 W1 b1 W2 b2 W3 b3) X :=
  mlp3_narrowed dot_S3200x288_S288x300_S3200x300_1_0_0_1_n_n ⟨rfl, rfl, rfl, rfl, rfl, rfl, rfl, rfl⟩
    dot_S3200x300_S300x300_S3200x300_1_0_0_1_n_n ⟨rfl, rfl, rfl, rfl, rfl, rfl, rfl, rfl⟩
    dot_S3200x300_S300x128_S3200x128_1_0_0_1_n_n ⟨rfl, rfl, rfl, rfl, rfl, rfl, rfl, rfl⟩
    X W1 b1 W2 b2 W3 b3 shapeCasts_S3200x288_S3200x288 shapeCasts_S300_S1x300 shapeCasts_S1x300_S1x300
    broadcasts_S1x300_S3200x300 shapeCasts_S128_S1x128 shapeCasts_S1x128_S1x128 broadcasts_S1x128_S3200x128
    bitsLt_bf16_f32

/-- The payload of the second kernel (blocks of 2000 rows of length 256) is row by row the perceptron. -/
theorem pay1_rows (X : FVec Ideal S2000x256 .f32) (W1 : FVec Ideal S256x300 .f32) (b1 : FVec Ideal S300 .f32)
    (W2 : FVec Ideal S300x300 .f32) (b2 : FVec Ideal S300 .f32) (W3 : FVec Ideal S300x128 .f32)
    (b3 : FVec Ideal S128 .f32) :
    k1_pay1 (F := Ideal) X W1 (shapeCast S1x300 b1 shapeCasts_S300_S1x300) W2
        (shapeCast S1x300 b2 shapeCasts_S300_S1x300) W3 (shapeCast S1x128 b3 shapeCasts_S128_S1x128)
      = rows1 (mlp3 W1 b1 W2 b2 W3 b3) X :=
  mlp3_narrowed dot_S2000x256_S256x300_S2000x300_1_0_0_1_n_n ⟨rfl, rfl, rfl, rfl, rfl, rfl, rfl, rfl⟩
    dot_S2000x300_S300x300_S2000x300_1_0_0_1_n_n ⟨rfl, rfl, rfl, rfl, rfl, rfl, rfl, rfl⟩
    dot_S2000x300_S300x128_S2000x128_1_0_0_1_n_n ⟨rfl, rfl, rfl, rfl, rfl, rfl, rfl, rfl⟩
    X W1 b1 W2 b2 W3 b3 shapeCasts_S2000x256_S2000x256 shapeCasts_S300_S1x300 shapeCasts_S1x300_S1x300
    broadcasts_S1x300_S2000x300 shapeCasts_S128_S1x128 shapeCasts_S1x128_S1x128 broadcasts_S1x128_S2000x128
    bitsLt_bf16_f32

end Cert.KernelIdeal.Hand

end
-- ==== Proof.TakeRows.lean ====
/-
  jnp.take's out-of-range fill is never taken when the indices are in range.

  The program takes rows of a table `[50000, 128]` at a vector of 800000 signed 32-bit indices with jnp.take in its
  default mode: a negative index is first wrapped by adding the number of rows, the wrapped indices are laid out as a
  column of start indices, the rows are gathered, and every result row whose wrapped index lies outside `[0, 49999]` is
  replaced by NaN. The range test is itself a little program: two signed comparisons against broadcast constants, their
  conjunction, and an `and`-reduction of that `[800000, 1]` mask along its unit axis from `true`.

  Under `0 ≤ idx e < 50000` for every `e`: the wrap leaves each index as it is (it is not negative), both comparisons
  hold, so the conjunction is all ones, so is its reduction (a fold of `and` over ones from one), so the selection takes
  the gathered row everywhere: the take IS the plain gather at the wrapped (here: unchanged) indices.
-/
import proofs.«419926_j60730837565915_1_alg».proof.KernelIdeal
import Idealize.ShloMosaic.PureOps

noncomputable section

namespace Cert.KernelIdeal.Hand

open Cert.KernelIdeal Idealize.ShloMosaic

variable {F : FTy → Type} [FloatOps F]

/-! ## Words -/

/-- A left fold of `and` over one-bit words that are all one, from one, is one. -/
theorem foldl_andi_ones {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a]
    exact ih

/-- An `and`-reduction of a mask that is one everywhere, from an initial value that is one, is one everywhere:
    whatever the axes, each result element folds `and` over ones. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones _ _ fun n => hx _

/-- A signed 32-bit word in `[0, 50000)` passes both range comparisons. -/
theorem inRange_word (w : BitVec 32) (h0 : 0 ≤ w.toInt) (h1 : w.toInt < 50000) :
    IntOp.andi (IntOp.cmpi .sge w 0#32) (IntOp.cmpi .sle w 49999#32) = 1#1 := by
  have c0 : (0#32).toInt = 0 := by decide
  have c1 : (49999#32).toInt = 49999 := by decide
  have a : IntOp.cmpi .sge w 0#32 = 1#1 := by
    show BitVec.ofBool ((0#32).sle w) = 1#1
    have : (0#32).sle w = true := by
      rw [BitVec.sle, c0]; exact decide_eq_true h0
    rw [this]; rfl
  have b : IntOp.cmpi .sle w 49999#32 = 1#1 := by
    show BitVec.ofBool (w.sle 49999#32) = 1#1
    have : w.sle 49999#32 = true := by
      rw [BitVec.sle, c1]; exact decide_eq_true (by omega)
    rw [this]; rfl
  rw [a, b]; rfl

/-- A word that is not negative is not wrapped: the selection on `w < 0` (signed) keeps `w`. -/
theorem wrap_word (w : BitVec 32) (h0 : 0 ≤ w.toInt) :
    Scalar.select (IntOp.cmpi .slt w 0#32) (IntOp.addi w 50000#32) w = w := by
  have c0 : (0#32).toInt = 0 := by decide
  have a : IntOp.cmpi .slt w 0#32 = 0#1 := by
    show BitVec.ofBool (w.slt 0#32) = 0#1
    have : w.slt 0#32 = false := by
      rw [BitVec.slt, c0]; exact decide_eq_false (by omega)
    rw [this]; rfl
  rw [a]
  unfold Scalar.select
  rw [if_neg (by decide)]

/-- A selection whose mask is one everywhere takes its first branch everywhere. -/
theorem select_ones {s : Shape} {α : Type} (c : IVec s 1) (a b : s.Idx → α) (hc : ∀ i, c i = 1#1) : select c a b = a := by
  funext i
  unfold select Scalar.select
  rw [hc i]
  exact if_pos (by decide)

/-- A broadcast of a mask that is one everywhere is one everywhere: each result element reads some operand element. -/
theorem broadcastInDim_ones {s t : Shape} (dims : Fin s.rank → Fin t.rank) (h : s.BroadcastsInDim t dims) (m : IVec s 1)
    (hm : ∀ k, m k = 1#1) (j : t.Idx) : broadcastInDim t dims h m j = 1#1 := by
  unfold broadcastInDim
  exact hm _

section
variable [Facts₀]
open Facts₀

/-! ## The take, as the printed operations compose -/

/-- The wrapped indices: `idx + 50000` where `idx < 0` (signed), `idx` elsewhere. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- jnp.take of the rows of `x` at `idx`, every operation as the program prints it: the wrapped indices as a column, the
    range mask reduced along the unit axis, the gather, and the selection between the gathered rows and NaN. -/
def takeFn (x : FVec F S50000x128 .f32) (idx : IVec S800000 32) : FVec F S800000x128 .f32 :=
  select
    (broadcastInDim S800000x128 ![0] bcast_S800000_S800000x128_0
      ((fun x v => Host.reduce IntOp.andi x v reducesTo_S800000x1_S800000_d1 h_S_)
        (andi
          (cmpi .sge (broadcastInDim S800000x1 ![0] bcast_S800000_S800000x1_0 (wrapIdx idx))
            (broadcastInDim S800000x1 ![] bcast_S_S800000x1 (constantI S_ 32 0#32)))
          (cmpi .sle (broadcastInDim S800000x1 ![0] bcast_S800000_S800000x1_0 (wrapIdx idx))
            (broadcastInDim S800000x1 ![0, 1] bcast_S1x1_S800000x1_0_1
              (broadcastInDim S1x1 ![1] bcast_S1_S1x1_1 (constantI S1 32 49999#32)))))
        (constantI S_ 1 1#1)))
    ((fun x i => Host.gather gather_S50000x128_S800000x1_S800000x128_1_0_n_n_0_1_1128 x i) x
      (broadcastInDim S800000x1 ![0] bcast_S800000_S800000x1_0 (wrapIdx idx)))
    (broadcastInDim S800000x128 ![] bcast_S_S800000x128 (constant S_ .f32 0x7FC00000#32))

/-- In-range indices are their own wrap. -/
theorem wrapIdx_apply (idx : IVec S800000 32) (e : S800000.Idx) (h0 : 0 ≤ (idx e).toInt) : wrapIdx idx e = idx e :=
  wrap_word (idx e) h0

/-- Under `0 ≤ idx < 50000` the take is the plain gather of the rows at the (wrapped) indices. -/
theorem takeFn_eq_gather (x : FVec F S50000x128 .f32) (idx : IVec S800000 32)
    (hin : ∀ e : S800000.Idx, 0 ≤ (idx e).toInt ∧ (idx e).toInt < 50000) :
    takeFn x idx = Host.gather gather_S50000x128_S800000x1_S800000x128_1_0_n_n_0_1_1128 x
      (broadcastInDim S800000x1 ![0] bcast_S800000_S800000x1_0 (wrapIdx idx)) := by
  -- the reduced mask is one at every index: each element of the conjunction is the range test of one wrapped index
  have hmask : ∀ k : S800000.Idx,
      Host.reduce IntOp.andi
        (andi
          (cmpi .sge (broadcastInDim S800000x1 ![0] bcast_S800000_S800000x1_0 (wrapIdx idx))
            (broadcastInDim S800000x1 ![] bcast_S_S800000x1 (constantI S_ 32 0#32)))
          (cmpi .sle (broadcastInDim S800000x1 ![0] bcast_S800000_S800000x1_0 (wrapIdx idx))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_ k = 1#1 := by
    intro k
    refine reduce_andi_ones _ _ _ _ (fun i => ?_) rfl k
    -- a broadcast reads its operand at some index; the constants read their word everywhere
    show IntOp.andi (IntOp.cmpi .sge (wrapIdx idx _) 0#32) (IntOp.cmpi .sle (wrapIdx idx _) 49999#32) = 1#1
    rw [wrapIdx_apply idx _ (hin _).1]
    exact inRange_word _ (hin _).1 (hin _).2
  unfold takeFn
  exact select_ones _ _ _ (broadcastInDim_ones _ _ _ hmask)

end

end Cert.KernelIdeal.Hand
-- ==== Proof.IdxRange.lean ====
/-
  The two index rows of the edge list. The kernel cuts row 0 (sources) and row 1 (destinations) out of the
  edge list `[2, 800000]` by a unit-stride slice `[1, 800000]` at offsets (0, 0) and (1, 0), and flattens each to
  `[800000]`. A slice read at j is the operand at j shifted by the offsets, and a flattening read at e is the
  operand at the index of the same row-major position: entry e of row r is the edge list's entry (r, e).
  So whatever holds of every entry of the edge list — here: read signed, it lies in [0, 50000) — holds of
  every entry of either row.
-/
import proofs.«419926_j60730837565915_1_alg».proof.KernelIdeal
import Idealize.ShloMosaic.Lib.Pipeline.Value

noncomputable section

namespace Cert.KernelIdeal.Hand

open Cert.KernelIdeal Idealize.ShloMosaic

variable [Facts₀]
open Facts₀

/-- Row 0 of the edge list, flattened: the source node of every edge. -/
def idxS (a1 : IVec S2x800000 32) : IVec S800000 32 :=
  shapeCast _ (extractStridedSlice S1x800000 ![0, 0] a1 slices_S2x800000_S1x800000_0_0) shapeCasts_S1x800000_S800000

/-- Row 1 of the edge list, flattened: the destination node of every edge. -/
def idxD (a1 : IVec S2x800000 32) : IVec S800000 32 :=
  shapeCast _ (extractStridedSlice S1x800000 ![1, 0] a1 slices_S2x800000_S1x800000_1_0) shapeCasts_S1x800000_S800000

/-- Index (r, e) of the edge list. -/
def rowIdx (r : Fin 2) (e : S800000.Idx) : S2x800000.Idx := fun a => match a with
  | ⟨0, _⟩ => r
  | ⟨1, _⟩ => e 0

/-- Index (0, e) of a one-row array. -/
def oneRow (e : S800000.Idx) : S1x800000.Idx := fun a => match a with
  | ⟨0, _⟩ => ⟨0, Nat.one_pos⟩
  | ⟨1, _⟩ => e 0

/-- Flattening a one-row array: entry e is entry (0, e) — position 0 · 800000 + e in row-major order. -/
theorem flat_apply {α : Type} (y : S1x800000.Idx → α) (e : S800000.Idx) :
    shapeCast S800000 y shapeCasts_S1x800000_S800000 e = y (oneRow e) :=
  shapeCast_apply y shapeCasts_S1x800000_S800000 e (oneRow e)
    (by rw [Shape.rowMajor_val_two, Shape.rowMajor_val_one]; show 0 * 800000 + (e 0).val = (e 0).val; omega)

/-- Entry e of the source row is the edge list's entry (0, e). -/
theorem idxS_apply (a1 : IVec S2x800000 32) (e : S800000.Idx) : idxS a1 e = a1 (rowIdx 0 e) := by
  unfold idxS
  rw [flat_apply]
  exact extractStridedSlice_apply ![0, 0] a1 slices_S2x800000_S1x800000_0_0 (oneRow e) (rowIdx 0 e) (fun a => match a with
    | ⟨0, _⟩ => by show (0 : Nat) = 0 + 0; omega
    | ⟨1, _⟩ => by show (e 0).val = 0 + (e 0).val; omega)

/-- Entry e of the destination row is the edge list's entry (1, e). -/
theorem idxD_apply (a1 : IVec S2x800000 32) (e : S800000.Idx) : idxD a1 e = a1 (rowIdx 1 e) := by
  unfold idxD
  rw [flat_apply]
  exact extractStridedSlice_apply ![1, 0] a1 slices_S2x800000_S1x800000_1_0 (oneRow e) (rowIdx 1 e) (fun a => match a with
    | ⟨0, _⟩ => by show (1 : Nat) = 1 + 0; omega
    | ⟨1, _⟩ => by show (e 0).val = 0 + (e 0).val; omega)

/-- Every source is a node number when every entry of the edge list is. -/
theorem idxS_range (a1 : IVec S2x800000 32)
    (hin : ∀ i : S2x800000.Idx, 0 ≤ (a1 i).toInt ∧ (a1 i).toInt < 50000) :
    ∀ e : S800000.Idx, 0 ≤ (idxS a1 e).toInt ∧ (idxS a1 e).toInt < 50000 := fun e => by
  rw [idxS_apply]; exact hin _

/-- Every destination is a node number when every entry of the edge list is. -/
theorem idxD_range (a1 : IVec S2x800000 32)
    (hin : ∀ i : S2x800000.Idx, 0 ≤ (a1 i).toInt ∧ (a1 i).toInt < 50000) :
    ∀ e : S800000.Idx, 0 ≤ (idxD a1 e).toInt ∧ (idxD a1 e).toInt < 50000 := fun e => by
  rw [idxD_apply]; exact hin _

end Cert.KernelIdeal.Hand

end
-- ==== Proof.LibNary3.lean ====
/-
  A host operation with three operands of their own types (a concatenation of three pieces): after it the result buffer
  holds the operation's function of the three operands' contents, listed as a `Fin.cons` chain so that `u 0`, `u 1`,
  `u 2` in the function's body reduce to the three contents. Stated once for rewriting and once, with the result
  reference un-indexed, for `simp`; with a macro evaluating a literal list of operations at a reference in one `simp` pass.
-/
import Idealize.ShloMosaic.Lib.StableHlo.Run

namespace Idealize.ShloMosaic.StableHlo

variable {τ : Topo} {sig : RefSig} {Val : EltTy → Type} {x a b y : Ref sig .tc}

/-- The result of a three-operand operation at its own result buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Evaluates `after ops V r` for a literal list of operations, three-operand ones included, in one `simp` pass. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-- Evaluates `after ops V r` for a literal list of operations, three-operand ones included, by rewriting one
    operation's result at a time (this form also rewrites inside the operand list of a concatenation). -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.KIHostTake.lean ====
/-
  The host stretches that build the message network's input, read at their result buffers, from any contents.

  Before the first launch the program cuts the edge list `[2, 800000]` into its two rows (the sources, the targets),
  takes the node rows at the targets and at the sources, and puts the two gathered matrices and the edge features side
  by side; it also recasts three bias vectors as one-row matrices. Each stretch is a straight line of host operations,
  so what a result buffer holds after it is the composition of the operations' functions over what the argument buffers
  held before: the two index vectors are a row slice recast as a vector, the two takes are `takeFn` of the node table
  and an index vector, the concatenation and the recasts are one operation each.
-/
import proofs.«419926_j60730837565915_1_alg».proof.Proof.Gen.KernelIdeal.Launch
import proofs.«419926_j60730837565915_1_alg».proof.Proof.TakeRows
import proofs.«419926_j60730837565915_1_alg».proof.Proof.LibNary3
import Idealize.ShloMosaic.Lib.StableHlo.Run

set_option maxRecDepth 4096

noncomputable section

namespace Cert.KernelIdeal.Hand

open Cert.KernelIdeal Cert.KernelIdeal.Gen Idealize.ShloMosaic Idealize.ShloMosaic.StableHlo

variable {F : FTy → Type} [FloatOps F]
variable (V : Valuation τ sig (Elt F))

/-! ## The edge list's two rows -/

/-- The source indices: row 0 of the edge list, as a vector. -/
theorem idxS_of : StableHlo.after hostOps0 V (Proc.devRef .tc main_v1)
    = shapeCast _ (extractStridedSlice S1x800000 ![0, 0] (V (Proc.devRef .tc main_arg1)) slices_S2x800000_S1x800000_0_0) shapeCasts_S1x800000_S800000 := by
  after_results <;> rfl

/-- The target indices: row 1 of the edge list, as a vector. -/
theorem idxD_of : StableHlo.after hostOps0 V (Proc.devRef .tc main_v3)
    = shapeCast _ (extractStridedSlice S1x800000 ![1, 0] (V (Proc.devRef .tc main_arg1)) slices_S2x800000_S1x800000_1_0) shapeCasts_S1x800000_S800000 := by
  after_results <;> rfl

/-! ## The two takes -/

set_option maxHeartbeats 1000000 in
/-- The node rows at the targets. (The called function's operations carry their values' types: the transports along
    those type equations are identities, removed before the two sides are compared.) -/
theorem take_dst_of : StableHlo.after hostOps0_1 V (Proc.devRef .tc main_v4)
    = takeFn (V (Proc.devRef .tc main_arg0)) (V (Proc.devRef .tc main_v3)) := by
  after_results
  simp only [TRef.ofBuf, TRef.toBuf, cast_eq]
  rfl

set_option maxHeartbeats 1000000 in
/-- The node rows at the sources. -/
theorem take_src_of : StableHlo.after hostOps0_2 V (Proc.devRef .tc main_v5)
    = takeFn (V (Proc.devRef .tc main_arg0)) (V (Proc.devRef .tc main_v1)) := by
  after_results
  simp only [TRef.ofBuf, TRef.toBuf, cast_eq]
  rfl

/-! ## The concatenation and the bias rows -/

/-- The message network's input: the two gathered matrices and the edge features side by side. -/
theorem cat_of : StableHlo.after hostOps0_3 V (Proc.devRef .tc main_v6)
    = concatenate S800000x288 1 [⟨S800000x128, V (Proc.devRef .tc main_v4)⟩, ⟨S800000x128, V (Proc.devRef .tc main_v5)⟩,
        ⟨S800000x32, V (Proc.devRef .tc main_arg2)⟩] concatenates_S800000x128_S800000x128_S800000x32_S800000x288_d1 := by
  after_results3 <;> rfl

/-- The first bias as a one-row matrix. -/
theorem b1row_of : StableHlo.after hostOps0_3 V (Proc.devRef .tc main_v7)
    = shapeCast S1x300 (V (Proc.devRef .tc main_arg5)) shapeCasts_S300_S1x300 := by
  after_results3 <;> rfl

/-- The second bias as a one-row matrix. -/
theorem b2row_of : StableHlo.after hostOps0_3 V (Proc.devRef .tc main_v8)
    = shapeCast S1x300 (V (Proc.devRef .tc main_arg7)) shapeCasts_S300_S1x300 := by
  after_results3 <;> rfl

/-- The third bias as a one-row matrix. -/
theorem b3row_of : StableHlo.after hostOps0_3 V (Proc.devRef .tc main_v9)
    = shapeCast S1x128 (V (Proc.devRef .tc main_arg9)) shapeCasts_S128_S1x128 := by
  after_results3 <;> rfl

end Cert.KernelIdeal.Hand
-- ==== Proof.KIHostTail.lean ====
/-
  The host stretches of the kernel program that follow the gathers, read at their result buffers, for any contents of
  the buffers they start from. A stretch is a straight line of pure operations, each writing one buffer: the contents of
  a result buffer after the line is the composition of the operations' functions, applied to the contents the line
  started from at the buffers it reads.
  The stretch before the second launch sums the messages per target node, puts the node rows and the sums side by side
  and lays the node network's three biases out as rows. The five stretches after the second launch pool the node rows
  per graph (a sum per graph divided by the number of nodes of the graph, at least one) and apply the graph-level
  network of three layers; together they are one pure function `tailFn` of the node rows, the graph index of every node
  and the graph-level network's weights and biases.
-/
import proofs.«419926_j60730837565915_1_alg».proof.Proof.Gen.KernelIdeal.Launch
import Idealize.ShloMosaic.Lib.StableHlo.Run

set_option maxRecDepth 8192

noncomputable section

namespace Cert.KernelIdeal.Hand

open Cert.KernelIdeal Cert.KernelIdeal.Gen Idealize.ShloMosaic Idealize.ShloMosaic.StableHlo

variable {F : FTy → Type} [FloatOps F]

/-! ## The stretch before the second launch -/

/-- The node network's input: the node rows side by side with the per-node sums of the messages. -/
theorem nodein_of (V : Valuation τ sig (Elt F)) :
    StableHlo.after hostOps1 V (Proc.devRef .tc main_v14) = concatenate S50000x256 1 [⟨S50000x128, V (Proc.devRef .tc main_arg0)⟩, ⟨S50000x128, Host.scatterAdd scatter_S50000x128_S800000x1_S800000x128_1_0_0_1 (broadcastInDim S50000x128 ![] bcast_S_S50000x128 (constant S_ .f32 0x00000000#32)) (broadcastInDim S800000x1 ![0] bcast_S800000_S800000x1_0 (V (Proc.devRef .tc main_v3))) (V (Proc.devRef .tc main_v10))⟩] concatenates_S50000x128_S50000x128_S50000x256_d1 := by
  after_results_simp <;> rfl

/-- The node network's first bias as one row. -/
theorem nb1row_of (V : Valuation τ sig (Elt F)) :
    StableHlo.after hostOps1 V (Proc.devRef .tc main_v15) = shapeCast S1x300 (V (Proc.devRef .tc main_arg11)) shapeCasts_S300_S1x300 := by
  after_results_simp <;> rfl

/-- The node network's second bias as one row. -/
theorem nb2row_of (V : Valuation τ sig (Elt F)) :
    StableHlo.after hostOps1 V (Proc.devRef .tc main_v16) = shapeCast S1x300 (V (Proc.devRef .tc main_arg13)) shapeCasts_S300_S1x300 := by
  after_results_simp <;> rfl

/-- The node network's third bias as one row. -/
theorem nb3row_of (V : Valuation τ sig (Elt F)) :
    StableHlo.after hostOps1 V (Proc.devRef .tc main_v17) = shapeCast S1x128 (V (Proc.devRef .tc main_arg15)) shapeCasts_S128_S1x128 := by
  after_results_simp <;> rfl

/-! ## The stretches after the second launch -/

/-- The pooling and the graph-level network as one pure function: the sum of the node rows `h` per graph (`batch` gives
    every node's graph), divided by the graph's number of nodes or by one if it has none, then three layers, the positive
    part after the first two. -/
def tailFn (h : FVec F S50000x128 .f32) (batch : IVec S50000 32) (gW1 : FVec F S128x128 .f32) (gb1 : FVec F S128 .f32)
    (gW2 : FVec F S128x128 .f32) (gb2 : FVec F S128 .f32) (gW3 : FVec F S128x1 .f32) (gb3 : FVec F S1 .f32) :
    FVec F S64x1 .f32 :=
  addf (Host.dotGeneral dot_S64x128_S128x1_S64x1_1_0_0_1_n_n none (maximumf (addf (Host.dotGeneral dot_S64x128_S128x128_S64x128_1_0_0_1_n_n none (maximumf (addf (Host.dotGeneral dot_S64x128_S128x128_S64x128_1_0_0_1_n_n none (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 batch) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))) gW1) (broadcastInDim S64x128 ![0, 1] bcast_S1x128_S64x128_0_1 (broadcastInDim S1x128 ![1] bcast_S128_S1x128_1 gb1))) (broadcastInDim S64x128 ![] bcast_S_S64x128 (constant S_ .f32 0x00000000#32))) gW2) (broadcastInDim S64x128 ![0, 1] bcast_S1x128_S64x128_0_1 (broadcastInDim S1x128 ![1] bcast_S128_S1x128_1 gb2))) (broadcastInDim S64x128 ![] bcast_S_S64x128 (constant S_ .f32 0x00000000#32))) gW3) (broadcastInDim S64x1 ![0, 1] bcast_S1x1_S64x1_0_1 (broadcastInDim S1x1 ![1] bcast_S1_S1x1_1 gb3))

/-- The program's result buffer after the last five stretches is `tailFn` of the contents they start from. -/
theorem tail_of (V : Valuation τ sig (Elt F)) :
    StableHlo.after hostOps2_4 (StableHlo.after hostOps2_3 (StableHlo.after hostOps2_2 (StableHlo.after hostOps2_1 (StableHlo.after hostOps2 V)))) (Proc.devRef .tc main_v44) = tailFn (V (Proc.devRef .tc main_v18)) (V (Proc.devRef .tc main_arg3)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  after_results_simp <;> rfl

end Cert.KernelIdeal.Hand

end
-- ==== Proof.KIFinal.lean ====
/-
  What the graph network's program returns, at the extended reals, as one term of its arguments.
  Reading the fold of buffer contents from the launch to the return: the two index rows are cut out of the edge list;
  the rows of the node features at the targets and at the sources are taken (with the out-of-range fill, never taken when
  every index is in range: then it is the plain gather); the message network's input is the three pieces side by side;
  the first launch leaves the three-layer perceptron of every row; the messages are summed per target node and put beside
  the node features; the second launch leaves the perceptron of every row of that; the pooling and the graph-level
  network follow on the host.
-/
import proofs.«419926_j60730837565915_1_alg».proof.Proof.KIFold
import proofs.«419926_j60730837565915_1_alg».proof.Proof.KIValue0
import proofs.«419926_j60730837565915_1_alg».proof.Proof.KIValue1
import proofs.«419926_j60730837565915_1_alg».proof.Proof.PayRows
import proofs.«419926_j60730837565915_1_alg».proof.Proof.TakeRows
import proofs.«419926_j60730837565915_1_alg».proof.Proof.IdxRange
import proofs.«419926_j60730837565915_1_alg».proof.Proof.KIHostTake
import proofs.«419926_j60730837565915_1_alg».proof.Proof.KIHostTail

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.RowOps

variable (m : (ℓ : Loc nD τ sig) → Buf (Elt Ideal) ℓ) (ρ : Dev nD → PrngReg)

/-! ## The arguments, by name -/
abbrev a0 (c : Dev nD) : FVec Ideal S50000x128 .f32 := m ((c : Thread nD τ).loc main_arg0)
abbrev a1 (c : Dev nD) : IVec S2x800000 32 := m ((c : Thread nD τ).loc main_arg1)
abbrev a2 (c : Dev nD) : FVec Ideal S800000x32 .f32 := m ((c : Thread nD τ).loc main_arg2)
abbrev a3 (c : Dev nD) : IVec S50000 32 := m ((c : Thread nD τ).loc main_arg3)
abbrev a4 (c : Dev nD) : FVec Ideal S288x300 .f32 := m ((c : Thread nD τ).loc main_arg4)
abbrev a5 (c : Dev nD) : FVec Ideal S300 .f32 := m ((c : Thread nD τ).loc main_arg5)
abbrev a6 (c : Dev nD) : FVec Ideal S300x300 .f32 := m ((c : Thread nD τ).loc main_arg6)
abbrev a7 (c : Dev nD) : FVec Ideal S300 .f32 := m ((c : Thread nD τ).loc main_arg7)
abbrev a8 (c : Dev nD) : FVec Ideal S300x128 .f32 := m ((c : Thread nD τ).loc main_arg8)
abbrev a9 (c : Dev nD) : FVec Ideal S128 .f32 := m ((c : Thread nD τ).loc main_arg9)
abbrev a10 (c : Dev nD) : FVec Ideal S256x300 .f32 := m ((c : Thread nD τ).loc main_arg10)
abbrev a11 (c : Dev nD) : FVec Ideal S300 .f32 := m ((c : Thread nD τ).loc main_arg11)
abbrev a12 (c : Dev nD) : FVec Ideal S300x300 .f32 := m ((c : Thread nD τ).loc main_arg12)
abbrev a13 (c : Dev nD) : FVec Ideal S300 .f32 := m ((c : Thread nD τ).loc main_arg13)
abbrev a14 (c : Dev nD) : FVec Ideal S300x128 .f32 := m ((c : Thread nD τ).loc main_arg14)
abbrev a15 (c : Dev nD) : FVec Ideal S128 .f32 := m ((c : Thread nD τ).loc main_arg15)
abbrev a16 (c : Dev nD) : FVec Ideal S128x128 .f32 := m ((c : Thread nD τ).loc main_arg16)
abbrev a17 (c : Dev nD) : FVec Ideal S128 .f32 := m ((c : Thread nD τ).loc main_arg17)
abbrev a18 (c : Dev nD) : FVec Ideal S128x128 .f32 := m ((c : Thread nD τ).loc main_arg18)
abbrev a19 (c : Dev nD) : FVec Ideal S128 .f32 := m ((c : Thread nD τ).loc main_arg19)
abbrev a20 (c : Dev nD) : FVec Ideal S128x1 .f32 := m ((c : Thread nD τ).loc main_arg20)
abbrev a21 (c : Dev nD) : FVec Ideal S1 .f32 := m ((c : Thread nD τ).loc main_arg21)

/-! ## A buffer nothing has written yet holds its launch contents -/
theorem W1_un (c : Dev nD) (r : Ref sig .tc) (h0 : r ∉ hostOps0_W) : W1 m ρ c (Proc.devRef .tc r) = m ((c : Thread nD τ).loc r) :=
  (W1_of m ρ c r h0).trans rfl
theorem W2_un (c : Dev nD) (r : Ref sig .tc) (h0 : r ∉ hostOps0_W) (h1 : r ∉ hostOps0_1_W) : W2 m ρ c (Proc.devRef .tc r) = m ((c : Thread nD τ).loc r) :=
  (W2_of m ρ c r h1).trans (W1_un m ρ c r h0)
theorem W3_un (c : Dev nD) (r : Ref sig .tc) (h0 : r ∉ hostOps0_W) (h1 : r ∉ hostOps0_1_W) (h2 : r ∉ hostOps0_2_W) : W3 m ρ c (Proc.devRef .tc r) = m ((c : Thread nD τ).loc r) :=
  (W3_of m ρ c r h2).trans (W2_un m ρ c r h0 h1)
theorem W4_un (c : Dev nD) (r : Ref sig .tc) (h0 : r ∉ hostOps0_W) (h1 : r ∉ hostOps0_1_W) (h2 : r ∉ hostOps0_2_W) (h3 : r ∉ hostOps0_3_W) : W4 m ρ c (Proc.devRef .tc r) = m ((c : Thread nD τ).loc r) :=
  (W4_of m ρ c r h3).trans (W3_un m ρ c r h0 h1 h2)
theorem W5_un (c : Dev nD) (r : Ref sig .tc) (h0 : r ∉ hostOps0_W) (h1 : r ∉ hostOps0_1_W) (h2 : r ∉ hostOps0_2_W) (h3 : r ∉ hostOps0_3_W) (h5 : r ≠ main_v10) : W5 m ρ c (Proc.devRef .tc r) = m ((c : Thread nD τ).loc r) :=
  (W5_keep m ρ c r h5).trans (W4_un m ρ c r h0 h1 h2 h3)
theorem W6_un (c : Dev nD) (r : Ref sig .tc) (h0 : r ∉ hostOps0_W) (h1 : r ∉ hostOps0_1_W) (h2 : r ∉ hostOps0_2_W) (h3 : r ∉ hostOps0_3_W) (h5 : r ≠ main_v10) (h6 : r ∉ hostOps1_W) : W6 m ρ c (Proc.devRef .tc r) = m ((c : Thread nD τ).loc r) :=
  (W6_of m ρ c r h6).trans (W5_un m ρ c r h0 h1 h2 h3 h5)
theorem W7_un (c : Dev nD) (r : Ref sig .tc) (h0 : r ∉ hostOps0_W) (h1 : r ∉ hostOps0_1_W) (h2 : r ∉ hostOps0_2_W) (h3 : r ∉ hostOps0_3_W) (h5 : r ≠ main_v10) (h6 : r ∉ hostOps1_W) (h7 : r ≠ main_v18) : W7 m ρ c (Proc.devRef .tc r) = m ((c : Thread nD τ).loc r) :=
  (W7_keep m ρ c r h7).trans (W6_un m ρ c r h0 h1 h2 h3 h5 h6)

/-! ## The index rows and the taken rows -/

theorem W1_v1 (c : Dev nD) : W1 m ρ c (Proc.devRef .tc main_v1) = idxS (a1 m c) := idxS_of (W0 m ρ c)
theorem W1_v3 (c : Dev nD) : W1 m ρ c (Proc.devRef .tc main_v3) = idxD (a1 m c) := idxD_of (W0 m ρ c)

theorem W3_v4 (c : Dev nD) : W3 m ρ c (Proc.devRef .tc main_v4) = takeFn (a0 m c) (idxD (a1 m c)) := by
  rw [W3_of m ρ c main_v4 (by decide)]
  show StableHlo.after hostOps0_1 (W1 m ρ c) (Proc.devRef .tc main_v4) = _
  rw [take_dst_of, W1_un m ρ c main_arg0 (by decide), W1_v3]

theorem W3_v5 (c : Dev nD) : W3 m ρ c (Proc.devRef .tc main_v5) = takeFn (a0 m c) (idxS (a1 m c)) := by
  show StableHlo.after hostOps0_2 (W2 m ρ c) (Proc.devRef .tc main_v5) = _
  rw [take_src_of, W2_un m ρ c main_arg0 (by decide) (by decide), W2_of m ρ c main_v1 (by decide), W1_v1]

/-! ## The first launch's operands and what it leaves -/

theorem U4_v6 (c : Dev nD) : U4 m ρ c main_v6 = concatenate S800000x288 1 [⟨S800000x128, takeFn (a0 m c) (idxD (a1 m c))⟩, ⟨S800000x128, takeFn (a0 m c) (idxS (a1 m c))⟩, ⟨S800000x32, a2 m c⟩] concatenates_S800000x128_S800000x128_S800000x32_S800000x288_d1 := by
  show StableHlo.after hostOps0_3 (W3 m ρ c) (Proc.devRef .tc main_v6) = _
  rw [cat_of, W3_v4, W3_v5, W3_un m ρ c main_arg2 (by decide) (by decide) (by decide)]
theorem U4_v7 (c : Dev nD) : U4 m ρ c main_v7 = shapeCast S1x300 (a5 m c) shapeCasts_S300_S1x300 := by
  show StableHlo.after hostOps0_3 (W3 m ρ c) (Proc.devRef .tc main_v7) = _
  rw [b1row_of, W3_un m ρ c main_arg5 (by decide) (by decide) (by decide)]
theorem U4_v8 (c : Dev nD) : U4 m ρ c main_v8 = shapeCast S1x300 (a7 m c) shapeCasts_S300_S1x300 := by
  show StableHlo.after hostOps0_3 (W3 m ρ c) (Proc.devRef .tc main_v8) = _
  rw [b2row_of, W3_un m ρ c main_arg7 (by decide) (by decide) (by decide)]
theorem U4_v9 (c : Dev nD) : U4 m ρ c main_v9 = shapeCast S1x128 (a9 m c) shapeCasts_S128_S1x128 := by
  show StableHlo.after hostOps0_3 (W3 m ρ c) (Proc.devRef .tc main_v9) = _
  rw [b3row_of, W3_un m ρ c main_arg9 (by decide) (by decide) (by decide)]
theorem U4_arg4 (c : Dev nD) : U4 m ρ c main_arg4 = a4 m c := W4_un m ρ c main_arg4 (by decide) (by decide) (by decide) (by decide)
theorem U4_arg6 (c : Dev nD) : U4 m ρ c main_arg6 = a6 m c := W4_un m ρ c main_arg6 (by decide) (by decide) (by decide) (by decide)
theorem U4_arg8 (c : Dev nD) : U4 m ρ c main_arg8 = a8 m c := W4_un m ρ c main_arg8 (by decide) (by decide) (by decide) (by decide)

theorem W5_v10 (c : Dev nD) : W5 m ρ c (Proc.devRef .tc main_v10)
    = (rows1 (mlp3 (a4 m c) (a5 m c) (a6 m c) (a7 m c) (a8 m c) (a9 m c)) (U4 m ρ c main_v6) : S800000x128.Idx → EReal) :=
  (W5_arr m ρ c 7).trans (arr0 (U4 m ρ) c _ fun X => by
    rw [U4_arg4, U4_v7, U4_arg6, U4_v8, U4_arg8, U4_v9]
    exact pay0_rows X _ _ _ _ _ _)

/-! ## The second launch's operands and what it leaves -/

theorem U6_v14 (c : Dev nD) : U6 m ρ c main_v14 = concatenate S50000x256 1 [⟨S50000x128, a0 m c⟩, ⟨S50000x128, Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (idxD (a1 m c))) (W5 m ρ c (Proc.devRef .tc main_v10))⟩] concatenates_S50000x128_S50000x128_S50000x256_d1 := by
  show StableHlo.after hostOps1 (W5 m ρ c) (Proc.devRef .tc main_v14) = _
  rw [nodein_of, W5_un m ρ c main_arg0 (by decide) (by decide) (by decide) (by decide) (by decide), W5_keep m ρ c main_v3 (by decide), W4_of m ρ c main_v3 (by decide), W3_of m ρ c main_v3 (by decide), W2_of m ρ c main_v3 (by decide), W1_v3]
theorem U6_v15 (c : Dev nD) : U6 m ρ c main_v15 = shapeCast S1x300 (a11 m c) shapeCasts_S300_S1x300 := by
  show StableHlo.after hostOps1 (W5 m ρ c) (Proc.devRef .tc main_v15) = _
  rw [nb1row_of, W5_un m ρ c main_arg11 (by decide) (by decide) (by decide) (by decide) (by decide)]
theorem U6_v16 (c : Dev nD) : U6 m ρ c main_v16 = shapeCast S1x300 (a13 m c) shapeCasts_S300_S1x300 := by
  show StableHlo.after hostOps1 (W5 m ρ c) (Proc.devRef .tc main_v16) = _
  rw [nb2row_of, W5_un m ρ c main_arg13 (by decide) (by decide) (by decide) (by decide) (by decide)]
theorem U6_v17 (c : Dev nD) : U6 m ρ c main_v17 = shapeCast S1x128 (a15 m c) shapeCasts_S128_S1x128 := by
  show StableHlo.after hostOps1 (W5 m ρ c) (Proc.devRef .tc main_v17) = _
  rw [nb3row_of, W5_un m ρ c main_arg15 (by decide) (by decide) (by decide) (by decide) (by decide)]
theorem U6_arg10 (c : Dev nD) : U6 m ρ c main_arg10 = a10 m c := W6_un m ρ c main_arg10 (by decide) (by decide) (by decide) (by decide) (by decide) (by decide)
theorem U6_arg12 (c : Dev nD) : U6 m ρ c main_arg12 = a12 m c := W6_un m ρ c main_arg12 (by decide) (by decide) (by decide) (by decide) (by decide) (by decide)
theorem U6_arg14 (c : Dev nD) : U6 m ρ c main_arg14 = a14 m c := W6_un m ρ c main_arg14 (by decide) (by decide) (by decide) (by decide) (by decide) (by decide)

theorem W7_v18 (c : Dev nD) : W7 m ρ c (Proc.devRef .tc main_v18)
    = (rows1 (mlp3 (a10 m c) (a11 m c) (a12 m c) (a13 m c) (a14 m c) (a15 m c)) (U6 m ρ c main_v14) : S50000x128.Idx → EReal) :=
  (W7_arr m ρ c 7).trans (arr1 (U6 m ρ) c _ fun X => by
    rw [U6_arg10, U6_v15, U6_arg12, U6_v16, U6_arg14, U6_v17]
    exact pay1_rows X _ _ _ _ _ _)

/-! ## The result -/

/-- The program's result as one term of its arguments, the taken rows written as plain gathers. -/
def kval (c : Dev nD) : FVec Ideal S64x1 .f32 :=
  tailFn (F := Ideal)
    (rows1 (mlp3 (a10 m c) (a11 m c) (a12 m c) (a13 m c) (a14 m c) (a15 m c))
      (concatenate S50000x256 1 [⟨S50000x128, a0 m c⟩, ⟨S50000x128, Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (idxD (a1 m c)))
        (rows1 (mlp3 (a4 m c) (a5 m c) (a6 m c) (a7 m c) (a8 m c) (a9 m c))
          (concatenate S800000x288 1 [⟨S800000x128, Host.gather gather_S50000x128_S800000x1_S800000x128_1_0_n_n_0_1_1128 (a0 m c) (broadcastInDim S800000x1 ![0] bcast_S800000_S800000x1_0 (wrapIdx (idxD (a1 m c))))⟩, ⟨S800000x128, Host.gather gather_S50000x128_S800000x1_S800000x128_1_0_n_n_0_1_1128 (a0 m c) (broadcastInDim S800000x1 ![0] bcast_S800000_S800000x1_0 (wrapIdx (idxS (a1 m c))))⟩, ⟨S800000x32, a2 m c⟩] concatenates_S800000x128_S800000x128_S800000x32_S800000x288_d1))⟩] concatenates_S50000x128_S50000x128_S50000x256_d1))
    (a3 m c) (a16 m c) (a17 m c) (a18 m c) (a19 m c) (a20 m c) (a21 m c)

/-- THE RESULT BUFFER at the return, when every entry of the edge list is a node number. -/
theorem W12_value (c : Dev nD) (hin : ∀ i : S2x800000.Idx, 0 ≤ (a1 m c i).toInt ∧ (a1 m c i).toInt < 50000) :
    W12 m ρ c (Proc.devRef .tc main_v44) = kval m c := by
  show StableHlo.after hostOps2_4 (StableHlo.after hostOps2_3 (StableHlo.after hostOps2_2 (StableHlo.after hostOps2_1 (StableHlo.after hostOps2 (W7 m ρ c))))) (Proc.devRef .tc main_v44) = _
  rw [tail_of, W7_v18, U6_v14, W5_v10, U4_v6,
    takeFn_eq_gather (a0 m c) (idxD (a1 m c)) (idxD_range (a1 m c) hin),
    takeFn_eq_gather (a0 m c) (idxS (a1 m c)) (idxS_range (a1 m c) hin),
    W7_un m ρ c main_arg3 (by decide) (by decide) (by decide) (by decide) (by decide) (by decide) (by decide),
    W7_un m ρ c main_arg16 (by decide) (by decide) (by decide) (by decide) (by decide) (by decide) (by decide),
    W7_un m ρ c main_arg17 (by decide) (by decide) (by decide) (by decide) (by decide) (by decide) (by decide),
    W7_un m ρ c main_arg18 (by decide) (by decide) (by decide) (by decide) (by decide) (by decide) (by decide),
    W7_un m ρ c main_arg19 (by decide) (by decide) (by decide) (by decide) (by decide) (by decide) (by decide),
    W7_un m ρ c main_arg20 (by decide) (by decide) (by decide) (by decide) (by decide) (by decide) (by decide),
    W7_un m ρ c main_arg21 (by decide) (by decide) (by decide) (by decide) (by decide) (by decide) (by decide)]
  rfl

end Cert.KernelIdeal.Hand

end
-- ==== Proof.RefRows.lean ====
/-
  The reference's two perceptrons in row form. Each is three layers as the host spells them: a `dot_general`, the
  bias broadcast in two steps over the rows, a sum, and (after the first two layers) the maximum with a broadcast zero.
  Layer by layer this is row by row `relu ∘ dense W b` (or `dense W b` for the last layer); a row-wise map after a
  row-wise map is the row-wise map of the composite; so the whole network is, row by row, `mlp3`.
-/
import proofs.«419926_j60730837565915_1_alg».proof.ReferenceIdeal
import proofs.«419926_j60730837565915_1_alg».proof.Proof.Gen.ReferenceIdeal
import proofs.«419926_j60730837565915_1_alg».proof.Proof.LibRowDense
import proofs.«419926_j60730837565915_1_alg».proof.Proof.GnnSpec

noncomputable section

namespace Cert.ReferenceIdeal.Hand

open Cert.ReferenceIdeal Cert.ReferenceIdeal.Gen Idealize.ShloMosaic Idealize.ShloMosaic.RowOps

/-- A row-wise map applied after a row-wise map is the row-wise map of the composite: row `p` of `rows1 f X` is `f` of
    row `p` of `X`. -/
theorem rows1_rows1 {A C D E : Nat} (g : (Fin D → EReal) → Fin E → EReal) (f : (Fin C → EReal) → Fin D → EReal)
    (X : Mat A C) : rows1 g (rows1 f X) = rows1 (fun x => g (f x)) X :=
  mat_ext fun p h => by rw [rows1_apply, rows1_apply, row_rows1]

/-- THE MESSAGE NETWORK: on the 800000 rows of width 288, the three printed layers are row by row `mlp3`. -/
theorem ref_mlp_msg (X : FVec Ideal S800000x288 .f32) (W1 : FVec Ideal S288x300 .f32) (b1 : FVec Ideal S300 .f32)
    (W2 : FVec Ideal S300x300 .f32) (b2 : FVec Ideal S300 .f32) (W3 : FVec Ideal S300x128 .f32)
    (b3 : FVec Ideal S128 .f32) :
    addf (Host.dotGeneral dot_S800000x300_S300x128_S800000x128_1_0_0_1_n_n none (maximumf (addf (Host.dotGeneral dot_S800000x300_S300x300_S800000x300_1_0_0_1_n_n none (maximumf (addf (Host.dotGeneral dot_S800000x288_S288x300_S800000x300_1_0_0_1_n_n none X W1) (broadcastInDim S800000x300 ![0, 1] bcast_S1x300_S800000x300_0_1 (broadcastInDim S1x300 ![1] bcast_S300_S1x300_1 b1))) (broadcastInDim S800000x300 ![] bcast_S_S800000x300 (constant (F := Ideal) S_ .f32 0x00000000#32))) W2) (broadcastInDim S800000x300 ![0, 1] bcast_S1x300_S800000x300_0_1 (broadcastInDim S1x300 ![1] bcast_S300_S1x300_1 b2))) (broadcastInDim S800000x300 ![] bcast_S_S800000x300 (constant (F := Ideal) S_ .f32 0x00000000#32))) W3) (broadcastInDim S800000x128 ![0, 1] bcast_S1x128_S800000x128_0_1 (broadcastInDim S1x128 ![1] bcast_S128_S1x128_1 b3))
    = rows1 (mlp3 W1 b1 W2 b2 W3 b3) X := by
  rw [hdense_relu (A := 800000) (K := 288) (B := 300) dot_S800000x288_S288x300_S800000x300_1_0_0_1_n_n
      ⟨rfl, rfl, rfl, rfl, rfl, rfl, rfl, rfl⟩ X W1 b1 bcast_S300_S1x300_1 bcast_S1x300_S800000x300_0_1 bcast_S_S800000x300,
    hdense_relu (A := 800000) (K := 300) (B := 300) dot_S800000x300_S300x300_S800000x300_1_0_0_1_n_n
      ⟨rfl, rfl, rfl, rfl, rfl, rfl, rfl, rfl⟩ _ W2 b2 bcast_S300_S1x300_1 bcast_S1x300_S800000x300_0_1 bcast_S_S800000x300,
    hdense (A := 800000) (K := 300) (B := 128) dot_S800000x300_S300x128_S800000x128_1_0_0_1_n_n
      ⟨rfl, rfl, rfl, rfl, rfl, rfl, rfl, rfl⟩ _ W3 b3 bcast_S128_S1x128_1 bcast_S1x128_S800000x128_0_1,
    rows1_rows1, rows1_rows1]
  rfl

/-- THE NODE NETWORK: on the 50000 rows of width 256, the three printed layers are row by row `mlp3`. -/
theorem ref_mlp_node (X : FVec Ideal S50000x256 .f32) (W1 : FVec Ideal S256x300 .f32) (b1 : FVec Ideal S300 .f32)
    (W2 : FVec Ideal S300x300 .f32) (b2 : FVec Ideal S300 .f32) (W3 : FVec Ideal S300x128 .f32)
    (b3 : FVec Ideal S128 .f32) :
    addf (Host.dotGeneral dot_S50000x300_S300x128_S50000x128_1_0_0_1_n_n none (maximumf (addf (Host.dotGeneral dot_S50000x300_S300x300_S50000x300_1_0_0_1_n_n none (maximumf (addf (Host.dotGeneral dot_S50000x256_S256x300_S50000x300_1_0_0_1_n_n none X W1) (broadcastInDim S50000x300 ![0, 1] bcast_S1x300_S50000x300_0_1 (broadcastInDim S1x300 ![1] bcast_S300_S1x300_1 b1))) (broadcastInDim S50000x300 ![] bcast_S_S50000x300 (constant (F := Ideal) S_ .f32 0x00000000#32))) W2) (broadcastInDim S50000x300 ![0, 1] bcast_S1x300_S50000x300_0_1 (broadcastInDim S1x300 ![1] bcast_S300_S1x300_1 b2))) (broadcastInDim S50000x300 ![] bcast_S_S50000x300 (constant (F := Ideal) S_ .f32 0x00000000#32))) W3) (broadcastInDim S50000x128 ![0, 1] bcast_S1x128_S50000x128_0_1 (broadcastInDim S1x128 ![1] bcast_S128_S1x128_1 b3))
    = rows1 (mlp3 W1 b1 W2 b2 W3 b3) X := by
  rw [hdense_relu (A := 50000) (K := 256) (B := 300) dot_S50000x256_S256x300_S50000x300_1_0_0_1_n_n
      ⟨rfl, rfl, rfl, rfl, rfl, rfl, rfl, rfl⟩ X W1 b1 bcast_S300_S1x300_1 bcast_S1x300_S50000x300_0_1 bcast_S_S50000x300,
    hdense_relu (A := 50000) (K := 300) (B := 300) dot_S50000x300_S300x300_S50000x300_1_0_0_1_n_n
      ⟨rfl, rfl, rfl, rfl, rfl, rfl, rfl, rfl⟩ _ W2 b2 bcast_S300_S1x300_1 bcast_S1x300_S50000x300_0_1 bcast_S_S50000x300,
    hdense (A := 50000) (K := 300) (B := 128) dot_S50000x300_S300x128_S50000x128_1_0_0_1_n_n
      ⟨rfl, rfl, rfl, rfl, rfl, rfl, rfl, rfl⟩ _ W3 b3 bcast_S128_S1x128_1 bcast_S1x128_S50000x128_0_1,
    rows1_rows1, rows1_rows1]
  rfl

end Cert.ReferenceIdeal.Hand

end
-- ==== Proof.PreRange.lean ====
/-
  The last two conjuncts of the printed precondition `finite_inputs`, read back. The precondition is a
  conjunction (`and` of one-bit words) of one `jnp.all` per input array; its last two members are, over the
  edge list `main_arg1 : [2, 800000]` of 32-bit words, `all (edge ≥ 0)` and `all (edge < 50000)`, both signed.
  Each `jnp.all` is a reduction by `and` over both axes from the constant 1, so its being 1 gives a 1 at
  every element; a signed comparison word that is 1 is the comparison of the operands read as integers; the
  broadcast constants are 0 and 50000. Hence every edge word, read signed, lies in [0, 50000). The float
  type of the other inputs plays no part: the statements hold at every `F`.
-/
import proofs.«419926_j60730837565915_1_alg».proof.Pre_finite_inputs
import Idealize.ShloMosaic.Lib.ReduceAll

noncomputable section

namespace Cert.Pre_finite_inputs.Hand

open Idealize.ShloMosaic Cert.Pre_finite_inputs

variable [Facts]

/-- The rank-0 shape has one index. -/
instance subsingleton_S_ : Subsingleton S_.Idx := ⟨fun a b => funext fun d => d.elim0⟩

/-- What the two range conjuncts say of the edge list. -/
def InRange (a1 : IVec S2x800000 32) : Prop := ∀ i : S2x800000.Idx, 0 ≤ (a1 i).toInt ∧ (a1 i).toInt < 50000

/-- The last part: it conjoins what came before, the word of `all (edge ≥ 0)` (computed by the part before it)
    and `all (edge < 50000)`. -/
theorem part6 {F : FTy → Type} [FloatOps F] (a1 : IVec S2x800000 32) (v98 v101 : IVec S_ 1) (j : S_.Idx)
    (h : fn_part6 (F := F) a1 v98 v101 j = 1#1) : v101 j = 1#1 ∧ ∀ i : S2x800000.Idx, (a1 i).toInt < 50000 := by
  dsimp only [fn_part6] at h
  obtain ⟨h1, h2⟩ := IntOp.andi_eq_one.1 h
  obtain ⟨-, h3⟩ := IntOp.andi_eq_one.1 h1
  refine ⟨h3, fun i => ?_⟩
  have e := Host.reduce_andi_all _ _ _ _ j h2 i
  have e' : IntOp.cmpi .slt (a1 i) (50000#32) = 1#1 := e
  have := IntOp.cmpi_slt.1 e'
  have c : (50000#32 : BitVec 32).toInt = 50000 := by decide
  omega

/-- The part before the last computes the word of `all (edge ≥ 0)` and hands it on: both ranges. -/
theorem part5 {F : FTy → Type} [FloatOps F] (a1 : IVec S2x800000 32) (a20 : FVec F S128x1 .f32) (a21 : FVec F S1 .f32)
    (v83 : IVec S_ 1) (v84 : FVec F S128 .f32) (c32 : FVec F S_ .f32) (j : S_.Idx)
    (h : fn_part5 (F := F) a1 a20 a21 v83 v84 c32 j = 1#1) : InRange a1 := by
  dsimp only [fn_part5] at h
  obtain ⟨h0, hlt⟩ := part6 a1 _ _ j h
  intro i
  have e := Host.reduce_andi_all _ _ _ _ j h0 i
  have e' : IntOp.cmpi .sge (a1 i) (0#32) = 1#1 := e
  have := IntOp.cmpi_sge.1 e'
  have c : (0#32 : BitVec 32).toInt = 0 := by decide
  exact ⟨by omega, hlt i⟩

/-- The earlier parts only conjoin finiteness words and call the next part. -/
theorem part4 {F : FTy → Type} [FloatOps F] (a1 : IVec S2x800000 32) (a16 : FVec F S128x128 .f32) (a17 : FVec F S128 .f32)
    (a18 : FVec F S128x128 .f32) (a19 : FVec F S128 .f32) (a20 : FVec F S128x1 .f32) (a21 : FVec F S1 .f32)
    (v63 v67 : IVec S_ 1) (j : S_.Idx)
    (h : fn_part4 (F := F) a1 a16 a17 a18 a19 a20 a21 v63 v67 j = 1#1) : InRange a1 := by
  dsimp only [fn_part4] at h
  exact part5 a1 _ _ _ _ _ j h

theorem part3 {F : FTy → Type} [FloatOps F] (a1 : IVec S2x800000 32) (a13 : FVec F S300 .f32) (a14 : FVec F S300x128 .f32)
    (a15 : FVec F S128 .f32) (a16 : FVec F S128x128 .f32) (a17 : FVec F S128 .f32) (a18 : FVec F S128x128 .f32)
    (a19 : FVec F S128 .f32) (a20 : FVec F S128x1 .f32) (a21 : FVec F S1 .f32)
    (v48 : IVec S_ 1) (v49 v50 : FVec F S300x300 .f32) (j : S_.Idx)
    (h : fn_part3 (F := F) a1 a13 a14 a15 a16 a17 a18 a19 a20 a21 v48 v49 v50 j = 1#1) : InRange a1 := by
  dsimp only [fn_part3] at h
  exact part4 a1 _ _ _ _ _ _ _ _ j h

theorem part2 {F : FTy → Type} [FloatOps F] (a1 : IVec S2x800000 32) (a9 : FVec F S128 .f32) (a10 : FVec F S256x300 .f32)
    (a11 : FVec F S300 .f32) (a12 : FVec F S300x300 .f32) (a13 : FVec F S300 .f32) (a14 : FVec F S300x128 .f32)
    (a15 : FVec F S128 .f32) (a16 : FVec F S128x128 .f32) (a17 : FVec F S128 .f32) (a18 : FVec F S128x128 .f32)
    (a19 : FVec F S128 .f32) (a20 : FVec F S128x1 .f32) (a21 : FVec F S1 .f32) (v33 : IVec S_ 1) (j : S_.Idx)
    (h : fn_part2 (F := F) a1 a9 a10 a11 a12 a13 a14 a15 a16 a17 a18 a19 a20 a21 v33 j = 1#1) : InRange a1 := by
  dsimp only [fn_part2] at h
  exact part3 a1 _ _ _ _ _ _ _ _ _ _ _ _ j h

theorem part1 {F : FTy → Type} [FloatOps F] (a1 : IVec S2x800000 32) (a6 : FVec F S300x300 .f32) (a7 : FVec F S300 .f32)
    (a8 : FVec F S300x128 .f32) (a9 : FVec F S128 .f32) (a10 : FVec F S256x300 .f32)
    (a11 : FVec F S300 .f32) (a12 : FVec F S300x300 .f32) (a13 : FVec F S300 .f32) (a14 : FVec F S300x128 .f32)
    (a15 : FVec F S128 .f32) (a16 : FVec F S128x128 .f32) (a17 : FVec F S128 .f32) (a18 : FVec F S128x128 .f32)
    (a19 : FVec F S128 .f32) (a20 : FVec F S128x1 .f32) (a21 : FVec F S1 .f32) (v13 : IVec S_ 1) (v16 : IVec S300 1)
    (j : S_.Idx)
    (h : fn_part1 (F := F) a1 a6 a7 a8 a9 a10 a11 a12 a13 a14 a15 a16 a17 a18 a19 a20 a21 v13 v16 j = 1#1) :
    InRange a1 := by
  dsimp only [fn_part1] at h
  exact part2 a1 _ _ _ _ _ _ _ _ _ _ _ _ _ _ j h

/-- THE RANGE CONJUNCTS DECODED: where the precondition is all ones, every word of the edge list, read signed,
    is a node number: in [0, 50000). -/
theorem edge_in_range {F : FTy → Type} [FloatOps F]
    (a0 : FVec F S50000x128 .f32) (a1 : IVec S2x800000 32) (a2 : FVec F S800000x32 .f32) (a3 : IVec S50000 32)
    (a4 : FVec F S288x300 .f32) (a5 : FVec F S300 .f32) (a6 : FVec F S300x300 .f32) (a7 : FVec F S300 .f32)
    (a8 : FVec F S300x128 .f32) (a9 : FVec F S128 .f32) (a10 : FVec F S256x300 .f32) (a11 : FVec F S300 .f32)
    (a12 : FVec F S300x300 .f32) (a13 : FVec F S300 .f32) (a14 : FVec F S300x128 .f32) (a15 : FVec F S128 .f32)
    (a16 : FVec F S128x128 .f32) (a17 : FVec F S128 .f32) (a18 : FVec F S128x128 .f32) (a19 : FVec F S128 .f32)
    (a20 : FVec F S128x1 .f32) (a21 : FVec F S1 .f32)
    (h : fn (F := F) a0 a1 a2 a3 a4 a5 a6 a7 a8 a9 a10 a11 a12 a13 a14 a15 a16 a17 a18 a19 a20 a21 = fun _ => 1#1) :
    ∀ i : S2x800000.Idx, 0 ≤ (a1 i).toInt ∧ (a1 i).toInt < 50000 := by
  have e := congrFun h (fun d => d.elim0)
  dsimp only [fn] at e
  exact part1 a1 _ _ _ _ _ _ _ _ _ _ _ _ _ _ _ _ _ _ _ e

end Cert.Pre_finite_inputs.Hand

end
-- ==== Proof.lean ====
/-
  A graph network's forward pass (messages by a three-layer perceptron over gathered node rows and edge features,
  summed per target node; node update by a second perceptron; mean pooling per graph; a graph-level perceptron) in two
  forms: a program that runs the two large perceptrons as two tiled launches over row blocks (3200 rows × 250, 2000 rows
  × 25) with the matrix products on values narrowed to 16 bits and takes the node rows with an out-of-range fill, and
  the reference that does everything by whole-array operations and clamps.

  Over the extended reals narrowing is the identity, so each launch computes, row by row, exactly the reference's
  perceptron; a row block of a row-wise function is the function of the row block, and the blocks tile the rows. The two
  ways of taking node rows agree wherever every index is a node number, which the precondition grants (the reference
  itself indexes the node table with these entries); then both programs are one term of the arguments: the gathers, the
  same scatter-adds, the same pooling and graph-level network.

  The three frames: the two tiled programs run launch by launch (each grid point reads its seven operands whole, writes
  its output block, and leaves everything else), with host operations between that never write an argument; the
  reference is a line of host operations.
-/
import proofs.«419926_j60730837565915_1_alg».proof.Defs
import proofs.«419926_j60730837565915_1_alg».proof.Proof.Gen.Kernel
import proofs.«419926_j60730837565915_1_alg».proof.Proof.Gen.KernelIdeal
import proofs.«419926_j60730837565915_1_alg».proof.Proof.Gen.ReferenceIdeal
import proofs.«419926_j60730837565915_1_alg».proof.Proof.Gen.Pre_finite_inputs
import proofs.«419926_j60730837565915_1_alg».proof.Proof.Gen.ReferenceIdeal.Run
import proofs.«419926_j60730837565915_1_alg».proof.Proof.KFold
import proofs.«419926_j60730837565915_1_alg».proof.Proof.KIFinal
import proofs.«419926_j60730837565915_1_alg».proof.Proof.RefRows
import proofs.«419926_j60730837565915_1_alg».proof.Proof.PreRange
import Idealize.ShloMosaic.Adequacy
import Idealize.ShloMosaic.Init

set_option maxRecDepth 16384

noncomputable section

namespace Cert.Proof

open Idealize.ShloMosaic Idealize.SL.Sem

/-- The tiled program at the word level runs and leaves its arguments. -/
theorem frame_k : Cert.frame_Kernel := fun m ρ _ =>
  (θ_run Cert.Kernel.defs _ _).mono (fun _ h c => (h c).2) (Cert.Kernel.Hand.run_posted (F := Bits) m ρ)

/-- The same program read over the extended reals runs and leaves its arguments. -/
theorem frame_ki : Cert.frame_KernelIdeal := fun m ρ _ =>
  (θ_run Cert.KernelIdeal.defs _ _).mono (fun _ h c => (h c).2) (Cert.KernelIdeal.Hand.run_posted (F := Ideal) m ρ)

/-- The reference is a line of host operations: it runs and leaves its arguments. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition every entry of the edge list is a node number. -/
theorem edges_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x800000.Idx, 0 ≤ (Cert.KernelIdeal.Hand.a1 m c i).toInt ∧ (Cert.KernelIdeal.Hand.a1 m c i).toInt < 50000 :=
  Cert.Pre_finite_inputs.Hand.edge_in_range (F := Ideal) _ _ _ _ _ _ _ _ _ _ _ _ _ _ _ _ _ _ _ _ _ _ (hpre c)

set_option maxHeartbeats 4000000 in
/-- The reference's result term, of arguments equal to the tiled program's, is the tiled program's result term. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.Value.res_main_v76 (F := Ideal) m' c = Cert.KernelIdeal.Hand.kval m c := by
  unfold Cert.ReferenceIdeal.Value.res_main_v76
  rw [Cert.ReferenceIdeal.Hand.ref_mlp_msg, Cert.ReferenceIdeal.Hand.ref_mlp_node]
  rw [h0, h1, h2, h3, h4, h5, h6, h7, h8, h9, h10, h11, h12, h13, h14, h15, h16, h17, h18, h19, h20, h21]
  rfl

/-- Both programs run, end with equal results, and leave their arguments. -/
theorem algebraic : Cert.algebraic_KernelIdeal_ReferenceIdeal := by
  intro m ρ m' ρ' hpre hagree
  refine ⟨fun c => Cert.KernelIdeal.Hand.kval m c, ?_, ?_⟩
  · exact (θ_run Cert.KernelIdeal.defs _ _).mono
      (fun r h c => ⟨(h c).1.trans (Cert.KernelIdeal.Hand.W12_value m ρ c (edges_in_range m hpre c)), (h c).2⟩)
      (Cert.KernelIdeal.Hand.run_posted (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    exact ref_value m m' c h0 h1 h2 h3 h4 h5 h6 h7 h8 h9 h10 h11 h12 h13 h14 h15 h16 h17 h18 h19 h20 h21

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
